-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x1x1 : Shape := ⟨3, ![250000, 1, 1]⟩
abbrev S250000x3x1 : Shape := ⟨3, ![250000, 3, 1]⟩
abbrev S250000x5x1 : Shape := ⟨3, ![250000, 5, 1]⟩
abbrev S250000x7x1 : Shape := ⟨3, ![250000, 7, 1]⟩
abbrev S250000x256 : Shape := ⟨2, ![250000, 256]⟩
abbrev S250000x192 : Shape := ⟨2, ![250000, 192]⟩
abbrev S250000x128 : Shape := ⟨2, ![250000, 128]⟩
abbrev S250000x64 : Shape := ⟨2, ![250000, 64]⟩
abbrev S10000x1x256 : Shape := ⟨3, ![10000, 1, 256]⟩
abbrev S250000 : Shape := ⟨1, ![250000]⟩
abbrev S_ : Shape := ⟨0, ![]⟩

class Facts : Prop where
  bcast_S_S250000x1x1 : S_.BroadcastsInDim S250000x1x1 (![] : Fin 0 → Fin S250000x1x1.rank)
  reducesTo_S250000x1x1_S_d0_1_2 : S250000x1x1.ReducesTo [0, 1, 2] S_
  h_S_ : 0 < S_.numel
  bcast_S_S250000x3x1 : S_.BroadcastsInDim S250000x3x1 (![] : Fin 0 → Fin S250000x3x1.rank)
  reducesTo_S250000x3x1_S_d0_1_2 : S250000x3x1.ReducesTo [0, 1, 2] S_
  bcast_S_S250000x5x1 : S_.BroadcastsInDim S250000x5x1 (![] : Fin 0 → Fin S250000x5x1.rank)
  reducesTo_S250000x5x1_S_d0_1_2 : S250000x5x1.ReducesTo [0, 1, 2] S_
  bcast_S_S250000x7x1 : S_.BroadcastsInDim S250000x7x1 (![] : Fin 0 → Fin S250000x7x1.rank)
  reducesTo_S250000x7x1_S_d0_1_2 : S250000x7x1.ReducesTo [0, 1, 2] S_
  bcast_S_S250000x256 : S_.BroadcastsInDim S250000x256 (![] : Fin 0 → Fin S250000x256.rank)
  reducesTo_S250000x256_S_d0_1 : S250000x256.ReducesTo [0, 1] S_
  bcast_S_S250000x192 : S_.BroadcastsInDim S250000x192 (![] : Fin 0 → Fin S250000x192.rank)
  reducesTo_S250000x192_S_d0_1 : S250000x192.ReducesTo [0, 1] S_
  bcast_S_S250000x128 : S_.BroadcastsInDim S250000x128 (![] : Fin 0 → Fin S250000x128.rank)
  reducesTo_S250000x128_S_d0_1 : S250000x128.ReducesTo [0, 1] S_
  bcast_S_S250000x64 : S_.BroadcastsInDim S250000x64 (![] : Fin 0 → Fin S250000x64.rank)
  reducesTo_S250000x64_S_d0_1 : S250000x64.ReducesTo [0, 1] S_
  bcast_S_S10000x1x256 : S_.BroadcastsInDim S10000x1x256 (![] : Fin 0 → Fin S10000x1x256.rank)
  reducesTo_S10000x1x256_S_d0_1_2 : S10000x1x256.ReducesTo [0, 1, 2] S_

variable [Facts]

def fn_part2 {F : FTy → Type} [FloatOps F] (main_arg7 : FVec F S250000x64 .f32) (main_arg8 : FVec F S10000x1x256 .f32) (main_v33 : IVec S_ 1) : IVec S_ 1 :=
  let main_v34 : FVec F S250000x64 .f32 := Host.absf main_arg7
  let main_cst_12 : FVec F S_ .f32 := constant S_ .f32 0x7F800000#32
  let main_v35 : FVec F S250000x64 .f32 := broadcastInDim S250000x64 ![] bcast_S_S250000x64 main_cst_12
  let main_v36 : IVec S250000x64 1 := cmpf .olt main_v34 main_v35
  let main_c_13 : IVec S_ 1 := constantI S_ 1 1#1
  let main_v37 : IVec S_ 1 := (fun x v => Host.reduce IntOp.andi x v reducesTo_S250000x64_S_d0_1 h_S_) main_v36 main_c_13
  let main_v38 : IVec S_ 1 := andi main_v33 main_v37
  let main_v39 : FVec F S10000x1x256 .f32 := Host.absf main_arg8
  let main_cst_14 : FVec F S_ .f32 := constant S_ .f32 0x7F800000#32
  let main_v40 : FVec F S10000x1x256 .f32 := broadcastInDim S10000x1x256 ![] bcast_S_S10000x1x256 main_cst_14
  let main_v41 : IVec S10000x1x256 1 := cmpf .olt main_v39 main_v40
  let main_c_15 : IVec S_ 1 := constantI S_ 1 1#1
  let main_v42 : IVec S_ 1 := (fun x v => Host.reduce IntOp.andi x v reducesTo_S10000x1x256_S_d0_1_2 h_S_) main_v41 main_c_15
  let main_v43 : IVec S_ 1 := andi main_v38 main_v42
  main_v43

def fn_part1 {F : FTy → Type} [FloatOps F] (main_arg4 : FVec F S250000x256 .f32) (main_arg5 : FVec F S250000x192 .f32) (main_arg6 : FVec F S250000x128 .f32) (main_arg7 : FVec F S250000x64 .f32) (main_arg8 : FVec F S10000x1x256 .f32) (main_v13 : IVec S_ 1) (main_v16 : IVec S250000x7x1 1) : IVec S_ 1 :=
  let main_c_5 : IVec S_ 1 := constantI S_ 1 1#1
  let main_v17 : IVec S_ 1 := (fun x v => Host.reduce IntOp.andi x v reducesTo_S250000x7x1_S_d0_1_2 h_S_) main_v16 main_c_5
  let main_v18 : IVec S_ 1 := andi main_v13 main_v17
  let main_v19 : FVec F S250000x256 .f32 := Host.absf main_arg4
  let main_cst_6 : FVec F S_ .f32 := constant S_ .f32 0x7F800000#32
  let main_v20 : FVec F S250000x256 .f32 := broadcastInDim S250000x256 ![] bcast_S_S250000x256 main_cst_6
  let main_v21 : IVec S250000x256 1 := cmpf .olt main_v19 main_v20
  let main_c_7 : IVec S_ 1 := constantI S_ 1 1#1
  let main_v22 : IVec S_ 1 := (fun x v => Host.reduce IntOp.andi x v reducesTo_S250000x256_S_d0_1 h_S_) main_v21 main_c_7
  let main_v23 : IVec S_ 1 := andi main_v18 main_v22
  let main_v24 : FVec F S250000x192 .f32 := Host.absf main_arg5
  let main_cst_8 : FVec F S_ .f32 := constant S_ .f32 0x7F800000#32
  let main_v25 : FVec F S250000x192 .f32 := broadcastInDim S250000x192 ![] bcast_S_S250000x192 main_cst_8
  let main_v26 : IVec S250000x192 1 := cmpf .olt main_v24 main_v25
  let main_c_9 : IVec S_ 1 := constantI S_ 1 1#1
  let main_v27 : IVec S_ 1 := (fun x v => Host.reduce IntOp.andi x v reducesTo_S250000x192_S_d0_1 h_S_) main_v26 main_c_9
  let main_v28 : IVec S_ 1 := andi main_v23 main_v27
  let main_v29 : FVec F S250000x128 .f32 := Host.absf main_arg6
  let main_cst_10 : FVec F S_ .f32 := constant S_ .f32 0x7F800000#32
  let main_v30 : FVec F S250000x128 .f32 := broadcastInDim S250000x128 ![] bcast_S_S250000x128 main_cst_10
  let main_v31 : IVec S250000x128 1 := cmpf .olt main_v29 main_v30
  let main_c_11 : IVec S_ 1 := constantI S_ 1 1#1
  let main_v32 : IVec S_ 1 := (fun x v => Host.reduce IntOp.andi x v reducesTo_S250000x128_S_d0_1 h_S_) main_v31 main_c_11
  let main_v33 : IVec S_ 1 := andi main_v28 main_v32
  fn_part2 (F := F) main_arg7 main_arg8 main_v33

def fn {F : FTy → Type} [FloatOps F] (main_arg0 : FVec F S250000x1x1 .f32) (main_arg1 : FVec F S250000x3x1 .f32) (main_arg2 : FVec F S250000x5x1 .f32) (main_arg3 : FVec F S250000x7x1 .f32) (main_arg4 : FVec F S250000x256 .f32) (main_arg5 : FVec F S250000x192 .f32) (main_arg6 : FVec F S250000x128 .f32) (main_arg7 : FVec F S250000x64 .f32) (main_arg8 : FVec F S10000x1x256 .f32) (main_arg9 : IVec S250000 32) (main_arg10 : IVec S250000 32) : IVec S_ 1 :=
  let main_v0 : FVec F S250000x1x1 .f32 := Host.absf main_arg0
  let main_cst : FVec F S_ .f32 := constant S_ .f32 0x7F800000#32
  let main_v1 : FVec F S250000x1x1 .f32 := broadcastInDim S250000x1x1 ![] bcast_S_S250000x1x1 main_cst
  let main_v2 : IVec S250000x1x1 1 := cmpf .olt main_v0 main_v1
  let main_c : IVec S_ 1 := constantI S_ 1 1#1
  let main_v3 : IVec S_ 1 := (fun x v => Host.reduce IntOp.andi x v reducesTo_S250000x1x1_S_d0_1_2 h_S_) main_v2 main_c
  let main_v4 : FVec F S250000x3x1 .f32 := Host.absf main_arg1
  let main_cst_0 : FVec F S_ .f32 := constant S_ .f32 0x7F800000#32
  let main_v5 : FVec F S250000x3x1 .f32 := broadcastInDim S250000x3x1 ![] bcast_S_S250000x3x1 main_cst_0
  let main_v6 : IVec S250000x3x1 1 := cmpf .olt main_v4 main_v5
  let main_c_1 : IVec S_ 1 := constantI S_ 1 1#1
  let main_v7 : IVec S_ 1 := (fun x v => Host.reduce IntOp.andi x v reducesTo_S250000x3x1_S_d0_1_2 h_S_) main_v6 main_c_1
  let main_v8 : IVec S_ 1 := andi main_v3 main_v7
  let main_v9 : FVec F S250000x5x1 .f32 := Host.absf main_arg2
  let main_cst_2 : FVec F S_ .f32 := constant S_ .f32 0x7F800000#32
  let main_v10 : FVec F S250000x5x1 .f32 := broadcastInDim S250000x5x1 ![] bcast_S_S250000x5x1 main_cst_2
  let main_v11 : IVec S250000x5x1 1 := cmpf .olt main_v9 main_v10
  let main_c_3 : IVec S_ 1 := constantI S_ 1 1#1
  let main_v12 : IVec S_ 1 := (fun x v => Host.reduce IntOp.andi x v reducesTo_S250000x5x1_S_d0_1_2 h_S_) main_v11 main_c_3
  let main_v13 : IVec S_ 1 := andi main_v8 main_v12
  let main_v14 : FVec F S250000x7x1 .f32 := Host.absf main_arg3
  let main_cst_4 : FVec F S_ .f32 := constant S_ .f32 0x7F800000#32
  let main_v15 : FVec F S250000x7x1 .f32 := broadcastInDim S250000x7x1 ![] bcast_S_S250000x7x1 main_cst_4
  let main_v16 : IVec S250000x7x1 1 := cmpf .olt main_v14 main_v15
  fn_part1 (F := F) main_arg4 main_arg5 main_arg6 main_arg7 main_arg8 main_v13 main_v16
-- ==== Kernel.lean ====
abbrev S250000x1x1 : Shape := ⟨3, ![250000, 1, 1]⟩
abbrev S250000x3x1 : Shape := ⟨3, ![250000, 3, 1]⟩
abbrev S250000x5x1 : Shape := ⟨3, ![250000, 5, 1]⟩
abbrev S250000x7x1 : Shape := ⟨3, ![250000, 7, 1]⟩
abbrev S250000x256 : Shape := ⟨2, ![250000, 256]⟩
abbrev S250000x192 : Shape := ⟨2, ![250000, 192]⟩
abbrev S250000x128 : Shape := ⟨2, ![250000, 128]⟩
abbrev S250000x64 : Shape := ⟨2, ![250000, 64]⟩
abbrev S10000x1x256 : Shape := ⟨3, ![10000, 1, 256]⟩
abbrev S250000 : Shape := ⟨1, ![250000]⟩
abbrev S_ : Shape := ⟨0, ![]⟩
abbrev S250000x1 : Shape := ⟨2, ![250000, 1]⟩
abbrev S250000x1x256 : Shape := ⟨3, ![250000, 1, 256]⟩
abbrev S400x1x1 : Shape := ⟨3, ![400, 1, 1]⟩
abbrev S400x256 : Shape := ⟨2, ![400, 256]⟩
abbrev S400x1x256 : Shape := ⟨3, ![400, 1, 256]⟩
abbrev S250000x3x192 : Shape := ⟨3, ![250000, 3, 192]⟩
abbrev S400x3x1 : Shape := ⟨3, ![400, 3, 1]⟩
abbrev S400x192 : Shape := ⟨2, ![400, 192]⟩
abbrev S400x3x192 : Shape := ⟨3, ![400, 3, 192]⟩
abbrev S400x1x192 : Shape := ⟨3, ![400, 1, 192]⟩
abbrev S10000x3x192 : Shape := ⟨3, ![10000, 3, 192]⟩
abbrev S250000x5x128 : Shape := ⟨3, ![250000, 5, 128]⟩
abbrev S1000x5x1 : Shape := ⟨3, ![1000, 5, 1]⟩
abbrev S1000x128 : Shape := ⟨2, ![1000, 128]⟩
abbrev S1000x1x256 : Shape := ⟨3, ![1000, 1, 256]⟩
abbrev S1000x5x128 : Shape := ⟨3, ![1000, 5, 128]⟩
abbrev S1000x1x128 : Shape := ⟨3, ![1000, 1, 128]⟩
abbrev S10000x5x128 : Shape := ⟨3, ![10000, 5, 128]⟩
abbrev S250000x7x64 : Shape := ⟨3, ![250000, 7, 64]⟩
abbrev S1000x7x1 : Shape := ⟨3, ![1000, 7, 1]⟩
abbrev S1000x64 : Shape := ⟨2, ![1000, 64]⟩
abbrev S1000x7x64 : Shape := ⟨3, ![1000, 7, 64]⟩
abbrev S1000x1x64 : Shape := ⟨3, ![1000, 1, 64]⟩
abbrev S10000x7x64 : Shape := ⟨3, ![10000, 7, 64]⟩

abbrev nBuf : Space → Nat
  | .hbm => 40
  | .vmem => 32
  | .smem => 0
  | _ => 0

abbrev bufTy : (tb : Table) → Fin (tcTables nBuf tb) → BufTy
  | .hbm, ⟨0, _⟩ => ⟨S250000x1x1, .f32⟩
  | .hbm, ⟨1, _⟩ => ⟨S250000x3x1, .f32⟩
  | .hbm, ⟨2, _⟩ => ⟨S250000x5x1, .f32⟩
  | .hbm, ⟨3, _⟩ => ⟨S250000x7x1, .f32⟩
  | .hbm, ⟨4, _⟩ => ⟨S250000x256, .f32⟩
  | .hbm, ⟨5, _⟩ => ⟨S250000x192, .f32⟩
  | .hbm, ⟨6, _⟩ => ⟨S250000x128, .f32⟩
  | .hbm, ⟨7, _⟩ => ⟨S250000x64, .f32⟩
  | .hbm, ⟨8, _⟩ => ⟨S10000x1x256, .f32⟩
  | .hbm, ⟨9, _⟩ => ⟨S250000, .i32⟩
  | .hbm, ⟨10, _⟩ => ⟨S250000, .i32⟩
  | .hbm, ⟨11, _⟩ => ⟨S_, .i32⟩
  | .hbm, ⟨12, _⟩ => ⟨S250000, .i32⟩
  | .hbm, ⟨13, _⟩ => ⟨S250000, .i1⟩
  | .hbm, ⟨14, _⟩ => ⟨S_, .i32⟩
  | .hbm, ⟨15, _⟩ => ⟨S250000, .i32⟩
  | .hbm, ⟨16, _⟩ => ⟨S250000, .i32⟩
  | .hbm, ⟨17, _⟩ => ⟨S250000, .i32⟩
  | .hbm, ⟨18, _⟩ => ⟨S250000x1, .i32⟩
  | .hbm, ⟨19, _⟩ => ⟨S250000x1x256, .f32⟩
  | .hbm, ⟨20, _⟩ => ⟨S250000x1x256, .f32⟩
  | .hbm, ⟨21, _⟩ => ⟨S_, .f32⟩
  | .hbm, ⟨22, _⟩ => ⟨S10000x1x256, .f32⟩
  | .hbm, ⟨23, _⟩ => ⟨S250000x1, .i32⟩
  | .hbm, ⟨24, _⟩ => ⟨S10000x1x256, .f32⟩
  | .hbm, ⟨25, _⟩ => ⟨S250000x3x192, .f32⟩
  | .hbm, ⟨26, _⟩ => ⟨S_, .f32⟩
  | .hbm, ⟨27, _⟩ => ⟨S10000x3x192, .f32⟩
  | .hbm, ⟨28, _⟩ => ⟨S250000x1, .i32⟩
  | .hbm, ⟨29, _⟩ => ⟨S10000x3x192, .f32⟩
  | .hbm, ⟨30, _⟩ => ⟨S250000x5x128, .f32⟩
  | .hbm, ⟨31, _⟩ => ⟨S_, .f32⟩
  | .hbm, ⟨32, _⟩ => ⟨S10000x5x128, .f32⟩
  | .hbm, ⟨33, _⟩ => ⟨S250000x1, .i32⟩
  | .hbm, ⟨34, _⟩ => ⟨S10000x5x128, .f32⟩
  | .hbm, ⟨35, _⟩ => ⟨S250000x7x64, .f32⟩
  | .hbm, ⟨36, _⟩ => ⟨S_, .f32⟩
  | .hbm, ⟨37, _⟩ => ⟨S10000x7x64, .f32⟩
  | .hbm, ⟨38, _⟩ => ⟨S250000x1, .i32⟩
  | .hbm, ⟨39, _⟩ => ⟨S10000x7x64, .f32⟩
  | .local _ .vmem, ⟨0, _⟩ => ⟨S400x1x1, .f32⟩
  | .local _ .vmem, ⟨1, _⟩ => ⟨S400x1x1, .f32⟩
  | .local _ .vmem, ⟨2, _⟩ => ⟨S400x256, .f32⟩
  | .local _ .vmem, ⟨3, _⟩ => ⟨S400x256, .f32⟩
  | .local _ .vmem, ⟨4, _⟩ => ⟨S400x1x256, .f32⟩
  | .local _ .vmem, ⟨5, _⟩ => ⟨S400x1x256, .f32⟩
  | .local _ .vmem, ⟨6, _⟩ => ⟨S400x1x256, .f32⟩
  | .local _ .vmem, ⟨7, _⟩ => ⟨S400x1x256, .f32⟩
  | .local _ .vmem, ⟨8, _⟩ => ⟨S400x3x1, .f32⟩
  | .local _ .vmem, ⟨9, _⟩ => ⟨S400x3x1, .f32⟩
  | .local _ .vmem, ⟨10, _⟩ => ⟨S400x192, .f32⟩
  | .local _ .vmem, ⟨11, _⟩ => ⟨S400x192, .f32⟩
  | .local _ .vmem, ⟨12, _⟩ => ⟨S400x1x256, .f32⟩
  | .local _ .vmem, ⟨13, _⟩ => ⟨S400x1x256, .f32⟩
  | .local _ .vmem, ⟨14, _⟩ => ⟨S400x3x192, .f32⟩
  | .local _ .vmem, ⟨15, _⟩ => ⟨S400x3x192, .f32⟩
  | .local _ .vmem, ⟨16, _⟩ => ⟨S1000x5x1, .f32⟩
  | .local _ .vmem, ⟨17, _⟩ => ⟨S1000x5x1, .f32⟩
  | .local _ .vmem, ⟨18, _⟩ => ⟨S1000x128, .f32⟩
  | .local _ .vmem, ⟨19, _⟩ => ⟨S1000x128, .f32⟩
  | .local _ .vmem, ⟨20, _⟩ => ⟨S1000x1x256, .f32⟩
  | .local _ .vmem, ⟨21, _⟩ => ⟨S1000x1x256, .f32⟩
  | .local _ .vmem, ⟨22, _⟩ => ⟨S1000x5x128, .f32⟩
  | .local _ .vmem, ⟨23, _⟩ => ⟨S1000x5x128, .f32⟩
  | .local _ .vmem, ⟨24, _⟩ => ⟨S1000x7x1, .f32⟩
  | .local _ .vmem, ⟨25, _⟩ => ⟨S1000x7x1, .f32⟩
  | .local _ .vmem, ⟨26, _⟩ => ⟨S1000x64, .f32⟩
  | .local _ .vmem, ⟨27, _⟩ => ⟨S1000x64, .f32⟩
  | .local _ .vmem, ⟨28, _⟩ => ⟨S1000x1x256, .f32⟩
  | .local _ .vmem, ⟨29, _⟩ => ⟨S1000x1x256, .f32⟩
  | .local _ .vmem, ⟨30, _⟩ => ⟨S1000x7x64, .f32⟩
  | .local _ .vmem, ⟨31, _⟩ => ⟨S1000x7x64, .f32⟩
  | _, _ => ⟨S250000x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨1, ![625], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x1x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![625], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S400x3x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x3x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![250], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1000x5x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x5x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![250], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1000x7x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x7x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S250000 : S_.BroadcastsInDim S250000 (![] : Fin 0 → Fin S250000.rank)
  bcast_S250000_S250000x1_0 : S250000.BroadcastsInDim S250000x1 (![0] : Fin 1 → Fin S250000x1.rank)
  inb_S400x1x1_S400x1x1_0_0_0 : ∀ a, (![0, 0, 0] : Fin 3 → Nat) a + S400x1x1.size a ≤ S400x1x1.size a
  h_S400x1x1 : 0 < S400x1x1.numel
  inb_S400x256_S400x256_0_0 : ∀ a, (![0, 0] : Fin 2 → Nat) a + S400x256.size a ≤ S400x256.size a
  h_S400x256 : 0 < S400x256.numel
  inb_S400x1x256_S400x1x256_0_0_0 : ∀ a, (![0, 0, 0] : Fin 3 → Nat) a + S400x1x256.size a ≤ S400x1x256.size a
  h_S400x1x256 : 0 < S400x1x256.numel
  shapeCasts_S400x1x256_S400x1x256 : S400x1x256.ShapeCasts S400x1x256
  shapeCasts_S400x256_S400x1x256 : S400x256.ShapeCasts S400x1x256
  broadcasts_S400x1x1_S400x1x256 : S400x1x1.Broadcasts S400x1x256
  bcast_S_S10000x1x256 : S_.BroadcastsInDim S10000x1x256 (![] : Fin 0 → Fin S10000x1x256.rank)
  inb_S400x3x1_S400x3x1_0_0_0 : ∀ a, (![0, 0, 0] : Fin 3 → Nat) a + S400x3x1.size a ≤ S400x3x1.size a
  h_S400x3x1 : 0 < S400x3x1.numel
  inb_S400x192_S400x192_0_0 : ∀ a, (![0, 0] : Fin 2 → Nat) a + S400x192.size a ≤ S400x192.size a
  h_S400x192 : 0 < S400x192.numel
  slices_S400x1x256_o0_0_0_S400x1x192 : S400x1x256.Slices ![0, 0, 0] S400x1x192
  shapeCasts_S400x192_S400x1x192 : S400x192.ShapeCasts S400x1x192
  broadcasts_S400x3x1_S400x3x192 : S400x3x1.Broadcasts S400x3x192
  broadcasts_S400x1x192_S400x3x192 : S400x1x192.Broadcasts S400x3x192
  inb_S400x3x192_S400x3x192_0_0_0 : ∀ a, (![0, 0, 0] : Fin 3 → Nat) a + S400x3x192.size a ≤ S400x3x192.size a
  h_S400x3x192 : 0 < S400x3x192.numel
  bcast_S_S10000x3x192 : S_.BroadcastsInDim S10000x3x192 (![] : Fin 0 → Fin S10000x3x192.rank)
  inb_S1000x5x1_S1000x5x1_0_0_0 : ∀ a, (![0, 0, 0] : Fin 3 → Nat) a + S1000x5x1.size a ≤ S1000x5x1.size a
  h_S1000x5x1 : 0 < S1000x5x1.numel
  inb_S1000x128_S1000x128_0_0 : ∀ a, (![0, 0] : Fin 2 → Nat) a + S1000x128.size a ≤ S1000x128.size a
  h_S1000x128 : 0 < S1000x128.numel
  inb_S1000x1x256_S1000x1x256_0_0_0 : ∀ a, (![0, 0, 0] : Fin 3 → Nat) a + S1000x1x256.size a ≤ S1000x1x256.size a
  h_S1000x1x256 : 0 < S1000x1x256.numel
  shapeCasts_S1000x1x256_S1000x1x256 : S1000x1x256.ShapeCasts S1000x1x256
  slices_S1000x1x256_o0_0_0_S1000x1x128 : S1000x1x256.Slices ![0, 0, 0] S1000x1x128
  shapeCasts_S1000x128_S1000x1x128 : S1000x128.ShapeCasts S1000x1x128
  broadcasts_S1000x5x1_S1000x5x128 : S1000x5x1.Broadcasts S1000x5x128
  broadcasts_S1000x1x128_S1000x5x128 : S1000x1x128.Broadcasts S1000x5x128
  inb_S1000x5x128_S1000x5x128_0_0_0 : ∀ a, (![0, 0, 0] : Fin 3 → Nat) a + S1000x5x128.size a ≤ S1000x5x128.size a
  h_S1000x5x128 : 0 < S1000x5x128.numel
  bcast_S_S10000x5x128 : S_.BroadcastsInDim S10000x5x128 (![] : Fin 0 → Fin S10000x5x128.rank)
  inb_S1000x7x1_S1000x7x1_0_0_0 : ∀ a, (![0, 0, 0] : Fin 3 → Nat) a + S1000x7x1.size a ≤ S1000x7x1.size a
  h_S1000x7x1 : 0 < S1000x7x1.numel
  inb_S1000x64_S1000x64_0_0 : ∀ a, (![0, 0] : Fin 2 → Nat) a + S1000x64.size a ≤ S1000x64.size a
  h_S1000x64 : 0 < S1000x64.numel
  slices_S1000x1x256_o0_0_0_S1000x1x64 : S1000x1x256.Slices ![0, 0, 0] S1000x1x64
  shapeCasts_S1000x64_S1000x1x64 : S1000x64.ShapeCasts S1000x1x64
  broadcasts_S1000x7x1_S1000x7x64 : S1000x7x1.Broadcasts S1000x7x64
  broadcasts_S1000x1x64_S1000x7x64 : S1000x1x64.Broadcasts S1000x7x64
  inb_S1000x7x64_S1000x7x64_0_0_0 : ∀ a, (![0, 0, 0] : Fin 3 → Nat) a + S1000x7x64.size a ≤ S1000x7x64.size a
  h_S1000x7x64 : 0 < S1000x7x64.numel
  bcast_S_S10000x7x64 : S_.BroadcastsInDim S10000x7x64 (![] : Fin 0 → Fin S10000x7x64.rank)
  gather_S10000x1x256_S250000x1_S250000x1x256_12_0_n_n_0_1_11256_wf : GatherDims.WF S10000x1x256 S250000x1 S250000x1x256 [1, 2] [0] [] [0] [] 1 ![1, 1, 256]
  scatter_S10000x1x256_S250000x1_S250000x1x256_12_0_0_1_wf : ScatterDims.WF S10000x1x256 S250000x1 S250000x1x256 [1, 2] [0] [0] 1
  scatter_S10000x3x192_S250000x1_S250000x3x192_12_0_0_1_wf : ScatterDims.WF S10000x3x192 S250000x1 S250000x3x192 [1, 2] [0] [0] 1
  scatter_S10000x5x128_S250000x1_S250000x5x128_12_0_0_1_wf : ScatterDims.WF S10000x5x128 S250000x1 S250000x5x128 [1, 2] [0] [0] 1
  scatter_S10000x7x64_S250000x1_S250000x7x64_12_0_0_1_wf : ScatterDims.WF S10000x7x64 S250000x1 S250000x7x64 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x1x1.size a ≤ S250000x1x1.size a
  hwx0_0 : ∀ i : grid0.Coords, EltTy.bits .f32 = 32 ∨ (Rect.block (s := S250000x1x1) S400x1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x256.size a ≤ S250000x256.size a
  hwx0_1 : ∀ i : grid0.Coords, EltTy.bits .f32 = 32 ∨ (Rect.block (s := S250000x256) S400x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x1x256.size a ≤ S250000x1x256.size a
  hwx0_2 : ∀ i : grid0.Coords, EltTy.bits .f32 = 32 ∨ (Rect.block (s := S250000x1x256) S400x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x1x256.size a ≤ S250000x1x256.size a
  hwx0_3 : ∀ i : grid0.Coords, EltTy.bits .f32 = 32 ∨ (Rect.block (s := S250000x1x256) S400x1x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x3x1.size a ≤ S250000x3x1.size a
  hwx1_0 : ∀ i : grid1.Coords, EltTy.bits .f32 = 32 ∨ (Rect.block (s := S250000x3x1) S400x3x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x192.size a ≤ S250000x192.size a
  hwx1_1 : ∀ i : grid1.Coords, EltTy.bits .f32 = 32 ∨ (Rect.block (s := S250000x192) S400x192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x1x256.size a ≤ S250000x1x256.size a
  hwx1_2 : ∀ i : grid1.Coords, EltTy.bits .f32 = 32 ∨ (Rect.block (s := S250000x1x256) S400x1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x3x192.size a ≤ S250000x3x192.size a
  hwx1_3 : ∀ i : grid1.Coords, EltTy.bits .f32 = 32 ∨ (Rect.block (s := S250000x3x192) S400x3x192.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x5x1.size a ≤ S250000x5x1.size a
  hwx2_0 : ∀ i : grid2.Coords, EltTy.bits .f32 = 32 ∨ (Rect.block (s := S250000x5x1) S1000x5x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S250000x128.size a
  hwx2_1 : ∀ i : grid2.Coords, EltTy.bits .f32 = 32 ∨ (Rect.block (s := S250000x128) S1000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1x256.size a ≤ S250000x1x256.size a
  hwx2_2 : ∀ i : grid2.Coords, EltTy.bits .f32 = 32 ∨ (Rect.block (s := S250000x1x256) S1000x1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x5x128.size a ≤ S250000x5x128.size a
  hwx2_3 : ∀ i : grid2.Coords, EltTy.bits .f32 = 32 ∨ (Rect.block (s := S250000x5x128) S1000x5x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x7x1.size a ≤ S250000x7x1.size a
  hwx3_0 : ∀ i : grid3.Coords, EltTy.bits .f32 = 32 ∨ (Rect.block (s := S250000x7x1) S1000x7x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x64.size a ≤ S250000x64.size a
  hwx3_1 : ∀ i : grid3.Coords, EltTy.bits .f32 = 32 ∨ (Rect.block (s := S250000x64) S1000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x1x256.size a ≤ S250000x1x256.size a
  hwx3_2 : ∀ i : grid3.Coords, EltTy.bits .f32 = 32 ∨ (Rect.block (s := S250000x1x256) S1000x1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x7x64.size a ≤ S250000x7x64.size a
  hwx3_3 : ∀ i : grid3.Coords, EltTy.bits .f32 = 32 ∨ (Rect.block (s := S250000x7x64) S1000x7x64.size (cc3_transform_3 i) (hinb3_3 i)).WholeWords (EltTy.packing .f32)

variable [Facts₀]

def gather_S10000x1x256_S250000x1_S250000x1x256_12_0_n_n_0_1_11256 : GatherDims S10000x1x256 S250000x1 S250000x1x256 where
  offsetDims := [1, 2]
  collapsedSliceDims := [0]
  operandBatchingDims := []
  startIndicesBatchingDims := []
  startIndexMap := [0]
  indexVectorDim := 1
  sliceSizes := ![1, 1, 256]
  wf := gather_S10000x1x256_S250000x1_S250000x1x256_12_0_n_n_0_1_11256_wf
def scatter_S10000x1x256_S250000x1_S250000x1x256_12_0_0_1 : ScatterDims S10000x1x256 S250000x1 S250000x1x256 where
  updateWindowDims := [1, 2]
  insertedWindowDims := [0]
  scatterDimsToOperandDims := [0]
  indexVectorDim := 1
  wf := scatter_S10000x1x256_S250000x1_S250000x1x256_12_0_0_1_wf
def scatter_S10000x3x192_S250000x1_S250000x3x192_12_0_0_1 : ScatterDims S10000x3x192 S250000x1 S250000x3x192 where
  updateWindowDims := [1, 2]
  insertedWindowDims := [0]
  scatterDimsToOperandDims := [0]
  indexVectorDim := 1
  wf := scatter_S10000x3x192_S250000x1_S250000x3x192_12_0_0_1_wf
def scatter_S10000x5x128_S250000x1_S250000x5x128_12_0_0_1 : ScatterDims S10000x5x128 S250000x1 S250000x5x128 where
  updateWindowDims := [1, 2]
  insertedWindowDims := [0]
  scatterDimsToOperandDims := [0]
  indexVectorDim := 1
  wf := scatter_S10000x5x128_S250000x1_S250000x5x128_12_0_0_1_wf
def scatter_S10000x7x64_S250000x1_S250000x7x64_12_0_0_1 : ScatterDims S10000x7x64 S250000x1 S250000x7x64 where
  updateWindowDims := [1, 2]
  insertedWindowDims := [0]
  scatterDimsToOperandDims := [0]
  indexVectorDim := 1
  wf := scatter_S10000x7x64_S250000x1_S250000x7x64_12_0_0_1_wf

abbrev win0_0 : Pipeline.Window sig grid0 :=
  Pipeline.Window.ofSpec (Memref.whole main_arg0) S400x1x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S400x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S400x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S400x1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x3x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S400x192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S400x1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S400x3x192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1000x5x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1000x1x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1000x5x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg3) S1000x7x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S1000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1000x1x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v19) S1000x7x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S250000x1x1 : Shape := ⟨3, ![250000, 1, 1]⟩
abbrev S250000x3x1 : Shape := ⟨3, ![250000, 3, 1]⟩
abbrev S250000x5x1 : Shape := ⟨3, ![250000, 5, 1]⟩
abbrev S250000x7x1 : Shape := ⟨3, ![250000, 7, 1]⟩
abbrev S250000x256 : Shape := ⟨2, ![250000, 256]⟩
abbrev S250000x192 : Shape := ⟨2, ![250000, 192]⟩
abbrev S250000x128 : Shape := ⟨2, ![250000, 128]⟩
abbrev S250000x64 : Shape := ⟨2, ![250000, 64]⟩
abbrev S10000x1x256 : Shape := ⟨3, ![10000, 1, 256]⟩
abbrev S250000 : Shape := ⟨1, ![250000]⟩
abbrev S_ : Shape := ⟨0, ![]⟩
abbrev S250000x1 : Shape := ⟨2, ![250000, 1]⟩
abbrev S250000x1x256 : Shape := ⟨3, ![250000, 1, 256]⟩
abbrev S250000x1x192 : Shape := ⟨3, ![250000, 1, 192]⟩
abbrev S250000x3x192 : Shape := ⟨3, ![250000, 3, 192]⟩
abbrev S10000x3x192 : Shape := ⟨3, ![10000, 3, 192]⟩
abbrev S250000x1x128 : Shape := ⟨3, ![250000, 1, 128]⟩
abbrev S250000x5x128 : Shape := ⟨3, ![250000, 5, 128]⟩
abbrev S10000x5x128 : Shape := ⟨3, ![10000, 5, 128]⟩
abbrev S250000x1x64 : Shape := ⟨3, ![250000, 1, 64]⟩
abbrev S250000x7x64 : Shape := ⟨3, ![250000, 7, 64]⟩
abbrev S10000x7x64 : Shape := ⟨3, ![10000, 7, 64]⟩

abbrev nBuf : Space → Nat
  | .hbm => 61
  | .vmem => 0
  | .smem => 0
  | _ => 0

abbrev bufTy : (tb : Table) → Fin (tcTables nBuf tb) → BufTy
  | .hbm, ⟨0, _⟩ => ⟨S250000x1x1, .f32⟩
  | .hbm, ⟨1, _⟩ => ⟨S250000x3x1, .f32⟩
  | .hbm, ⟨2, _⟩ => ⟨S250000x5x1, .f32⟩
  | .hbm, ⟨3, _⟩ => ⟨S250000x7x1, .f32⟩
  | .hbm, ⟨4, _⟩ => ⟨S250000x256, .f32⟩
  | .hbm, ⟨5, _⟩ => ⟨S250000x192, .f32⟩
  | .hbm, ⟨6, _⟩ => ⟨S250000x128, .f32⟩
  | .hbm, ⟨7, _⟩ => ⟨S250000x64, .f32⟩
  | .hbm, ⟨8, _⟩ => ⟨S10000x1x256, .f32⟩
  | .hbm, ⟨9, _⟩ => ⟨S250000, .i32⟩
  | .hbm, ⟨10, _⟩ => ⟨S250000, .i32⟩
  | .hbm, ⟨11, _⟩ => ⟨S_, .i32⟩
  | .hbm, ⟨12, _⟩ => ⟨S250000, .i32⟩
  | .hbm, ⟨13, _⟩ => ⟨S250000, .i1⟩
  | .hbm, ⟨14, _⟩ => ⟨S_, .i32⟩
  | .hbm, ⟨15, _⟩ => ⟨S250000, .i32⟩
  | .hbm, ⟨16, _⟩ => ⟨S250000, .i32⟩
  | .hbm, ⟨17, _⟩ => ⟨S250000, .i32⟩
  | .hbm, ⟨18, _⟩ => ⟨S250000x1, .i32⟩
  | .hbm, ⟨19, _⟩ => ⟨S250000x1x256, .f32⟩
  | .hbm, ⟨20, _⟩ => ⟨S250000x1x256, .f32⟩
  | .hbm, ⟨21, _⟩ => ⟨S250000x1x256, .f32⟩
  | .hbm, ⟨22, _⟩ => ⟨S250000x1x256, .f32⟩
  | .hbm, ⟨23, _⟩ => ⟨S250000x1x256, .f32⟩
  | .hbm, ⟨24, _⟩ => ⟨S_, .f32⟩
  | .hbm, ⟨25, _⟩ => ⟨S10000x1x256, .f32⟩
  | .hbm, ⟨26, _⟩ => ⟨S250000x1, .i32⟩
  | .hbm, ⟨27, _⟩ => ⟨S10000x1x256, .f32⟩
  | .hbm, ⟨28, _⟩ => ⟨S250000x1x192, .f32⟩
  | .hbm, ⟨29, _⟩ => ⟨S250000x3x192, .f32⟩
  | .hbm, ⟨30, _⟩ => ⟨S250000x3x192, .f32⟩
  | .hbm, ⟨31, _⟩ => ⟨S250000x3x192, .f32⟩
  | .hbm, ⟨32, _⟩ => ⟨S250000x1x192, .f32⟩
  | .hbm, ⟨33, _⟩ => ⟨S250000x3x192, .f32⟩
  | .hbm, ⟨34, _⟩ => ⟨S250000x3x192, .f32⟩
  | .hbm, ⟨35, _⟩ => ⟨S_, .f32⟩
  | .hbm, ⟨36, _⟩ => ⟨S10000x3x192, .f32⟩
  | .hbm, ⟨37, _⟩ => ⟨S250000x1, .i32⟩
  | .hbm, ⟨38, _⟩ => ⟨S10000x3x192, .f32⟩
  | .hbm, ⟨39, _⟩ => ⟨S250000x1x128, .f32⟩
  | .hbm, ⟨40, _⟩ => ⟨S250000x5x128, .f32⟩
  | .hbm, ⟨41, _⟩ => ⟨S250000x5x128, .f32⟩
  | .hbm, ⟨42, _⟩ => ⟨S250000x5x128, .f32⟩
  | .hbm, ⟨43, _⟩ => ⟨S250000x1x128, .f32⟩
  | .hbm, ⟨44, _⟩ => ⟨S250000x5x128, .f32⟩
  | .hbm, ⟨45, _⟩ => ⟨S250000x5x128, .f32⟩
  | .hbm, ⟨46, _⟩ => ⟨S_, .f32⟩
  | .hbm, ⟨47, _⟩ => ⟨S10000x5x128, .f32⟩
  | .hbm, ⟨48, _⟩ => ⟨S250000x1, .i32⟩
  | .hbm, ⟨49, _⟩ => ⟨S10000x5x128, .f32⟩
  | .hbm, ⟨50, _⟩ => ⟨S250000x1x64, .f32⟩
  | .hbm, ⟨51, _⟩ => ⟨S250000x7x64, .f32⟩
  | .hbm, ⟨52, _⟩ => ⟨S250000x7x64, .f32⟩
  | .hbm, ⟨53, _⟩ => ⟨S250000x7x64, .f32⟩
  | .hbm, ⟨54, _⟩ => ⟨S250000x1x64, .f32⟩
  | .hbm, ⟨55, _⟩ => ⟨S250000x7x64, .f32⟩
  | .hbm, ⟨56, _⟩ => ⟨S250000x7x64, .f32⟩
  | .hbm, ⟨57, _⟩ => ⟨S_, .f32⟩
  | .hbm, ⟨58, _⟩ => ⟨S10000x7x64, .f32⟩
  | .hbm, ⟨59, _⟩ => ⟨S250000x1, .i32⟩
  | .hbm, ⟨60, _⟩ => ⟨S10000x7x64, .f32⟩
  | _, _ => ⟨S250000x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  bcast_S_S250000 : S_.BroadcastsInDim S250000 (![] : Fin 0 → Fin S250000.rank)
  bcast_S250000_S250000x1_0 : S250000.BroadcastsInDim S250000x1 (![0] : Fin 1 → Fin S250000x1.rank)
  bcast_S250000x256_S250000x1x256_0_2 : S250000x256.BroadcastsInDim S250000x1x256 (![0, 2] : Fin 2 → Fin S250000x1x256.rank)
  bcast_S250000x1x1_S250000x1x256_0_1_2 : S250000x1x1.BroadcastsInDim S250000x1x256 (![0, 1, 2] : Fin 3 → Fin S250000x1x256.rank)
  bcast_S_S10000x1x256 : S_.BroadcastsInDim S10000x1x256 (![] : Fin 0 → Fin S10000x1x256.rank)
  bcast_S250000x192_S250000x1x192_0_2 : S250000x192.BroadcastsInDim S250000x1x192 (![0, 2] : Fin 2 → Fin S250000x1x192.rank)
  bcast_S250000x3x1_S250000x3x192_0_1_2 : S250000x3x1.BroadcastsInDim S250000x3x192 (![0, 1, 2] : Fin 3 → Fin S250000x3x192.rank)
  bcast_S250000x1x192_S250000x3x192_0_1_2 : S250000x1x192.BroadcastsInDim S250000x3x192 (![0, 1, 2] : Fin 3 → Fin S250000x3x192.rank)
  slices_S250000x1x256_S250000x1x192_0_0_0 : S250000x1x256.Slices ![0, 0, 0] S250000x1x192
  bcast_S_S10000x3x192 : S_.BroadcastsInDim S10000x3x192 (![] : Fin 0 → Fin S10000x3x192.rank)
  bcast_S250000x128_S250000x1x128_0_2 : S250000x128.BroadcastsInDim S250000x1x128 (![0, 2] : Fin 2 → Fin S250000x1x128.rank)
  bcast_S250000x5x1_S250000x5x128_0_1_2 : S250000x5x1.BroadcastsInDim S250000x5x128 (![0, 1, 2] : Fin 3 → Fin S250000x5x128.rank)
  bcast_S250000x1x128_S250000x5x128_0_1_2 : S250000x1x128.BroadcastsInDim S250000x5x128 (![0, 1, 2] : Fin 3 → Fin S250000x5x128.rank)
  slices_S250000x1x256_S250000x1x128_0_0_0 : S250000x1x256.Slices ![0, 0, 0] S250000x1x128
  bcast_S_S10000x5x128 : S_.BroadcastsInDim S10000x5x128 (![] : Fin 0 → Fin S10000x5x128.rank)
  bcast_S250000x64_S250000x1x64_0_2 : S250000x64.BroadcastsInDim S250000x1x64 (![0, 2] : Fin 2 → Fin S250000x1x64.rank)
  bcast_S250000x7x1_S250000x7x64_0_1_2 : S250000x7x1.BroadcastsInDim S250000x7x64 (![0, 1, 2] : Fin 3 → Fin S250000x7x64.rank)
  bcast_S250000x1x64_S250000x7x64_0_1_2 : S250000x1x64.BroadcastsInDim S250000x7x64 (![0, 1, 2] : Fin 3 → Fin S250000x7x64.rank)
  slices_S250000x1x256_S250000x1x64_0_0_0 : S250000x1x256.Slices ![0, 0, 0] S250000x1x64
  bcast_S_S10000x7x64 : S_.BroadcastsInDim S10000x7x64 (![] : Fin 0 → Fin S10000x7x64.rank)
  gather_S10000x1x256_S250000x1_S250000x1x256_12_0_n_n_0_1_11256_wf : GatherDims.WF S10000x1x256 S250000x1 S250000x1x256 [1, 2] [0] [] [0] [] 1 ![1, 1, 256]
  scatter_S10000x1x256_S250000x1_S250000x1x256_12_0_0_1_wf : ScatterDims.WF S10000x1x256 S250000x1 S250000x1x256 [1, 2] [0] [0] 1
  scatter_S10000x3x192_S250000x1_S250000x3x192_12_0_0_1_wf : ScatterDims.WF S10000x3x192 S250000x1 S250000x3x192 [1, 2] [0] [0] 1
  scatter_S10000x5x128_S250000x1_S250000x5x128_12_0_0_1_wf : ScatterDims.WF S10000x5x128 S250000x1 S250000x5x128 [1, 2] [0] [0] 1
  scatter_S10000x7x64_S250000x1_S250000x7x64_12_0_0_1_wf : ScatterDims.WF S10000x7x64 S250000x1 S250000x7x64 [1, 2] [0] [0] 1

variable [Facts₀]

def gather_S10000x1x256_S250000x1_S250000x1x256_12_0_n_n_0_1_11256 : GatherDims S10000x1x256 S250000x1 S250000x1x256 where
  offsetDims := [1, 2]
  collapsedSliceDims := [0]
  operandBatchingDims := []
  startIndicesBatchingDims := []
  startIndexMap := [0]
  indexVectorDim := 1
  sliceSizes := ![1, 1, 256]
  wf := gather_S10000x1x256_S250000x1_S250000x1x256_12_0_n_n_0_1_11256_wf
def scatter_S10000x1x256_S250000x1_S250000x1x256_12_0_0_1 : ScatterDims S10000x1x256 S250000x1 S250000x1x256 where
  updateWindowDims := [1, 2]
  insertedWindowDims := [0]
  scatterDimsToOperandDims := [0]
  indexVectorDim := 1
  wf := scatter_S10000x1x256_S250000x1_S250000x1x256_12_0_0_1_wf
def scatter_S10000x3x192_S250000x1_S250000x3x192_12_0_0_1 : ScatterDims S10000x3x192 S250000x1 S250000x3x192 where
  updateWindowDims := [1, 2]
  insertedWindowDims := [0]
  scatterDimsToOperandDims := [0]
  indexVectorDim := 1
  wf := scatter_S10000x3x192_S250000x1_S250000x3x192_12_0_0_1_wf
def scatter_S10000x5x128_S250000x1_S250000x5x128_12_0_0_1 : ScatterDims S10000x5x128 S250000x1 S250000x5x128 where
  updateWindowDims := [1, 2]
  insertedWindowDims := [0]
  scatterDimsToOperandDims := [0]
  indexVectorDim := 1
  wf := scatter_S10000x5x128_S250000x1_S250000x5x128_12_0_0_1_wf
def scatter_S10000x7x64_S250000x1_S250000x7x64_12_0_0_1 : ScatterDims S10000x7x64 S250000x1 S250000x7x64 where
  updateWindowDims := [1, 2]
  insertedWindowDims := [0]
  scatterDimsToOperandDims := [0]
  indexVectorDim := 1
  wf := scatter_S10000x7x64_S250000x1_S250000x7x64_12_0_0_1_wf

class Facts : Prop extends Facts₀ where

variable [Facts]
-- ==== Proof.Boundary0.lean ====
/-
  The first stretch of host operations leaves alone every buffer its nine operations do not write.

  Before the first region @main normalises the neighbour indices and gathers the embedding rows: nine operations, each
  writing a buffer of its own. Whether a given buffer is among those nine is decided over the list of them, so any
  other buffer holds at the first region's entry (`W1`) what it held at launch (`W0`).
-/
import proofs.«120961_j21474836480309_1_alg».proof.Proof.Gen.KernelIdeal.Frame
import Idealize.ShloMosaic.Lib.StableHlo.Run
import Idealize.ShloMosaic.PureOps.Ideal

set_option maxRecDepth 16384

noncomputable section

namespace Cert.KernelIdeal.Msg

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The buffers stretch 0's operations write. -/
abbrev written0 : List (Ref sig .tc) := [main_c, main_v0, main_v1, main_c_0, main_v2, main_v3, main_v4, main_v5, main_v6]
theorem writes0 : (hostOps0 : List (HloOp τ sig (Elt Ideal))).Forall fun op => op.writes ⊆ (written0.map (Proc.devRef (τ := τ) .tc)).toFinset := by
  simp only [List.Forall]; exact ⟨(by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide))⟩
/-- A buffer stretch 0 does not write holds after it what it held before. -/
theorem keepH0 (c : Dev nD) (r : Ref sig .tc) (h : r ∉ written0) :
    W1 m ρ c (Proc.devRef .tc r) = W0 m ρ c (Proc.devRef .tc r) :=
  StableHlo.after_of_writes_sub hostOps0 _ writes0 h

end Cert.KernelIdeal.Msg

end
-- ==== Proof.Boundary1.lean ====
/-
  From region 0's entry to region 1's entry: the region, then the stretch of host operations after it.

  A region changes only its output array: a buffer that is none of its four arrays is untouched, and each of its three
  input arrays is read and never written back. The stretch after it (zeros, the centres as a column, the scatter-add)
  writes four buffers of its own. So every buffer but the region's output and those four holds at region 1's entry
  (`W3`) what it held at region 0's entry (`W1`).
-/
import proofs.«120961_j21474836480309_1_alg».proof.Proof.Gen.KernelIdeal.Frame
import Idealize.ShloMosaic.Lib.StableHlo.Run
import Idealize.ShloMosaic.PureOps.Ideal

set_option maxRecDepth 16384

noncomputable section

namespace Cert.KernelIdeal.Msg

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Region 0 leaves alone every buffer but its output array. -/
theorem keepR0 (c : Dev nD) (r : Ref sig .tc) (h : r ≠ main_v7) :
    W2 m ρ c (Proc.devRef .tc r) = W1 m ρ c (Proc.devRef .tc r) := by
  by_cases hw : ∃ w, Pipeline.arrRef spec0 w = r
  · obtain ⟨w, rfl⟩ := hw
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact absurd rfl h
  · exact W2_of_ne m ρ c r fun w e => hw ⟨w, e⟩

/-- The buffers stretch 1's operations write. -/
abbrev written1 : List (Ref sig .tc) := [main_cst, main_v8, main_v9, main_v10]
theorem writes1 : (hostOps1 : List (HloOp τ sig (Elt Ideal))).Forall fun op => op.writes ⊆ (written1.map (Proc.devRef (τ := τ) .tc)).toFinset := by
  simp only [List.Forall]; exact ⟨(by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide))⟩
/-- A buffer stretch 1 does not write holds after it what it held before. -/
theorem keepH1 (c : Dev nD) (r : Ref sig .tc) (h : r ∉ written1) :
    W3 m ρ c (Proc.devRef .tc r) = W2 m ρ c (Proc.devRef .tc r) :=
  StableHlo.after_of_writes_sub hostOps1 _ writes1 h

/-- The two together. -/
theorem next1 (c : Dev nD) (r : Ref sig .tc) (hW : r ∉ written1) (hO : r ≠ main_v7) :
    W3 m ρ c (Proc.devRef .tc r) = W1 m ρ c (Proc.devRef .tc r) :=
  (keepH1 m ρ c r hW).trans (keepR0 m ρ c r hO)

end Cert.KernelIdeal.Msg

end
-- ==== Proof.Boundary2.lean ====
/-
  From region 1's entry to region 2's entry: the region, then the stretch of host operations after it.

  A region changes only its output array: a buffer that is none of its four arrays is untouched, and each of its three
  input arrays is read and never written back. The stretch after it (zeros, the centres as a column, the scatter-add)
  writes four buffers of its own. So every buffer but the region's output and those four holds at region 2's entry
  (`W5`) what it held at region 1's entry (`W3`).
-/
import proofs.«120961_j21474836480309_1_alg».proof.Proof.Gen.KernelIdeal.Frame
import Idealize.ShloMosaic.Lib.StableHlo.Run
import Idealize.ShloMosaic.PureOps.Ideal

set_option maxRecDepth 16384

noncomputable section

namespace Cert.KernelIdeal.Msg

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Region 1 leaves alone every buffer but its output array. -/
theorem keepR1 (c : Dev nD) (r : Ref sig .tc) (h : r ≠ main_v11) :
    W4 m ρ c (Proc.devRef .tc r) = W3 m ρ c (Proc.devRef .tc r) := by
  by_cases hw : ∃ w, Pipeline.arrRef spec1 w = r
  · obtain ⟨w, rfl⟩ := hw
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact absurd rfl h
  · exact W4_of_ne m ρ c r fun w e => hw ⟨w, e⟩

/-- The buffers stretch 2's operations write. -/
abbrev written2 : List (Ref sig .tc) := [main_cst_1, main_v12, main_v13, main_v14]
theorem writes2 : (hostOps2 : List (HloOp τ sig (Elt Ideal))).Forall fun op => op.writes ⊆ (written2.map (Proc.devRef (τ := τ) .tc)).toFinset := by
  simp only [List.Forall]; exact ⟨(by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide))⟩
/-- A buffer stretch 2 does not write holds after it what it held before. -/
theorem keepH2 (c : Dev nD) (r : Ref sig .tc) (h : r ∉ written2) :
    W5 m ρ c (Proc.devRef .tc r) = W4 m ρ c (Proc.devRef .tc r) :=
  StableHlo.after_of_writes_sub hostOps2 _ writes2 h

/-- The two together. -/
theorem next2 (c : Dev nD) (r : Ref sig .tc) (hW : r ∉ written2) (hO : r ≠ main_v11) :
    W5 m ρ c (Proc.devRef .tc r) = W3 m ρ c (Proc.devRef .tc r) :=
  (keepH2 m ρ c r hW).trans (keepR1 m ρ c r hO)

end Cert.KernelIdeal.Msg

end
-- ==== Proof.Boundary3.lean ====
/-
  From region 2's entry to region 3's entry: the region, then the stretch of host operations after it.

  A region changes only its output array: a buffer that is none of its four arrays is untouched, and each of its three
  input arrays is read and never written back. The stretch after it (zeros, the centres as a column, the scatter-add)
  writes four buffers of its own. So every buffer but the region's output and those four holds at region 3's entry
  (`W7`) what it held at region 2's entry (`W5`).
-/
import proofs.«120961_j21474836480309_1_alg».proof.Proof.Gen.KernelIdeal.Frame
import Idealize.ShloMosaic.Lib.StableHlo.Run
import Idealize.ShloMosaic.PureOps.Ideal

set_option maxRecDepth 16384

noncomputable section

namespace Cert.KernelIdeal.Msg

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Region 2 leaves alone every buffer but its output array. -/
theorem keepR2 (c : Dev nD) (r : Ref sig .tc) (h : r ≠ main_v15) :
    W6 m ρ c (Proc.devRef .tc r) = W5 m ρ c (Proc.devRef .tc r) := by
  by_cases hw : ∃ w, Pipeline.arrRef spec2 w = r
  · obtain ⟨w, rfl⟩ := hw
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact absurd rfl h
  · exact W6_of_ne m ρ c r fun w e => hw ⟨w, e⟩

/-- The buffers stretch 3's operations write. -/
abbrev written3 : List (Ref sig .tc) := [main_cst_2, main_v16, main_v17, main_v18]
theorem writes3 : (hostOps3 : List (HloOp τ sig (Elt Ideal))).Forall fun op => op.writes ⊆ (written3.map (Proc.devRef (τ := τ) .tc)).toFinset := by
  simp only [List.Forall]; exact ⟨(by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide))⟩
/-- A buffer stretch 3 does not write holds after it what it held before. -/
theorem keepH3 (c : Dev nD) (r : Ref sig .tc) (h : r ∉ written3) :
    W7 m ρ c (Proc.devRef .tc r) = W6 m ρ c (Proc.devRef .tc r) :=
  StableHlo.after_of_writes_sub hostOps3 _ writes3 h

/-- The two together. -/
theorem next3 (c : Dev nD) (r : Ref sig .tc) (hW : r ∉ written3) (hO : r ≠ main_v15) :
    W7 m ρ c (Proc.devRef .tc r) = W5 m ρ c (Proc.devRef .tc r) :=
  (keepH3 m ρ c r hW).trans (keepR2 m ρ c r hO)

end Cert.KernelIdeal.Msg

end
-- ==== Proof.Boundary4.lean ====
/-
  From region 3's entry to region 4's entry: the region, then the stretch of host operations after it.

  A region changes only its output array: a buffer that is none of its four arrays is untouched, and each of its three
  input arrays is read and never written back. The stretch after it (zeros, the centres as a column, the scatter-add)
  writes four buffers of its own. So every buffer but the region's output and those four holds at region 4's entry
  (`W9`) what it held at region 3's entry (`W7`).
-/
import proofs.«120961_j21474836480309_1_alg».proof.Proof.Gen.KernelIdeal.Frame
import Idealize.ShloMosaic.Lib.StableHlo.Run
import Idealize.ShloMosaic.PureOps.Ideal

set_option maxRecDepth 16384

noncomputable section

namespace Cert.KernelIdeal.Msg

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Region 3 leaves alone every buffer but its output array. -/
theorem keepR3 (c : Dev nD) (r : Ref sig .tc) (h : r ≠ main_v19) :
    W8 m ρ c (Proc.devRef .tc r) = W7 m ρ c (Proc.devRef .tc r) := by
  by_cases hw : ∃ w, Pipeline.arrRef spec3 w = r
  · obtain ⟨w, rfl⟩ := hw
    match w with
    | ⟨0, _⟩ => exact (W8_arr m ρ c 0).trans (((dat3 (V7 m ρ) c).arrAt_in 0 rfl _).trans (A_eq3 (V7 m ρ) c 0))
    | ⟨1, _⟩ => exact (W8_arr m ρ c 1).trans (((dat3 (V7 m ρ) c).arrAt_in 1 rfl _).trans (A_eq3 (V7 m ρ) c 1))
    | ⟨2, _⟩ => exact (W8_arr m ρ c 2).trans (((dat3 (V7 m ρ) c).arrAt_in 2 rfl _).trans (A_eq3 (V7 m ρ) c 2))
    | ⟨3, _⟩ => exact absurd rfl h
  · exact W8_of_ne m ρ c r fun w e => hw ⟨w, e⟩

/-- The buffers stretch 4's operations write. -/
abbrev written4 : List (Ref sig .tc) := [main_cst_3, main_v20, main_v21, main_v22]
theorem writes4 : (hostOps4 : List (HloOp τ sig (Elt Ideal))).Forall fun op => op.writes ⊆ (written4.map (Proc.devRef (τ := τ) .tc)).toFinset := by
  simp only [List.Forall]; exact ⟨(by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide)),
    (by simp only [StableHlo.nullary_writes, StableHlo.unary_writes, StableHlo.binary_writes, StableHlo.ternary_writes, Finset.singleton_subset_iff, List.mem_toFinset]; exact List.mem_map_of_mem (by decide))⟩
/-- A buffer stretch 4 does not write holds after it what it held before. -/
theorem keepH4 (c : Dev nD) (r : Ref sig .tc) (h : r ∉ written4) :
    W9 m ρ c (Proc.devRef .tc r) = W8 m ρ c (Proc.devRef .tc r) :=
  StableHlo.after_of_writes_sub hostOps4 _ writes4 h

/-- The two together. -/
theorem next4 (c : Dev nD) (r : Ref sig .tc) (hW : r ∉ written4) (hO : r ≠ main_v19) :
    W9 m ρ c (Proc.devRef .tc r) = W7 m ρ c (Proc.devRef .tc r) :=
  (keepH4 m ρ c r hW).trans (keepR3 m ρ c r hO)

end Cert.KernelIdeal.Msg

end
-- ==== Proof.LibKeepRow.lean ====
/-
  The row a reduction over the MIDDLE axis keeps, read at an index.

  `x[:, None, :]` followed by a broadcast along the new axis: an `[a, c]` array cast to `[a, 1, c]` reads, at `(i, u, k)`, the
  operand at `(i, k)` (`shapeCast_ac_a1c_apply`: a unit axis in the middle does not move the row-major position); an
  `[a, 1, c]` array broadcast along its middle axis to `[a, b, c]` reads, at `(i, j, k)`, the operand at `(i, 0, k)`
  (`broadcastTo_a1c_abc_apply`); the two together read the `[a, c]` array at `(i, k)` (`keptRow_apply`). Any sizes and
  element type. (The trailing-axis forms `[a, b] → [a, b, 1] → [a, b, c]` are the companion file's.)
-/
import Idealize.ShloMosaic.Lib.ValueIdx
import Idealize.ShloMosaic.Lib.Pipeline.Value

namespace Cert.LibKeepRow

open Idealize.ShloMosaic Idealize.ShloMosaic.ValueIdx

/-- An `[a, c]` array cast to `[a, 1, c]` reads, at `(i, u, k)`, the operand at `(i, k)`: a unit axis in the middle
    does not move the row-major position. -/
theorem shapeCast_ac_a1c_apply {α : Type} {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, 1, c]` array broadcast along its middle axis to `[a, b, c]` reads, at `(i, j, k)`, the operand at
    `(i, 0, k)`. -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- The two together, the row a reduction over the middle axis keeps: every entry `(i, j, k)` of the broadcast reads
    the `[a, c]` array at `(i, k)`. -/
theorem keptRow_apply {α : Type} {a b c : ℕ} (x : (⟨2, ![a, c]⟩ : Shape).Idx → α)
    (h1 : (⟨2, ![a, c]⟩ : Shape).ShapeCasts ⟨3, ![a, 1, c]⟩)
    (h2 : (⟨3, ![a, 1, c]⟩ : Shape).Broadcasts ⟨3, ![a, b, c]⟩) (i : Fin a) (j : Fin b) (k : Fin c) :
    broadcastTo ⟨3, ![a, b, c]⟩ (shapeCast ⟨3, ![a, 1, c]⟩ x h1) h2 (ix3 i j k) = x (ix2 i k) :=
  (broadcastTo_a1c_abc_apply _ h2 i j k).trans (shapeCast_ac_a1c_apply x h1 i 0 k)

end Cert.LibKeepRow
-- ==== Proof.LibKeepdims.lean ====
/-
  Layout operations read at an index by coordinates, for the shapes a row reduction with its reduced axis kept
  produces: an `[a, b]` array given a trailing unit axis, an `[a, b, 1]` array broadcast along that axis to
  `[a, b, c]` (the two together: every entry of row `(i, j)` reads the row's one value), and a `[1, a, b]` array
  broadcast along its leading axis to `[m, a, b]` (every member reads the one matrix). Any sizes, any element type.
-/
import Idealize.ShloMosaic.Lib.ValueIdx
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`: a trailing unit axis does
    not move the row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array broadcast along its last axis to `[a, b, c]` reads, at `(i, j, k)`, the operand at
    `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The two together, the column a reduction over the last axis keeps: every entry `(i, j, k)` of the broadcast reads
    the `[a, b]` array at `(i, j)`. -/
theorem keptColumn_apply {a b c : ℕ} (x : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x h1) h2 (ix3 i j k) = x (ix2 i j) :=
  (broadcastTo_ab1_abc_apply _ h2 i j k).trans (shapeCast_ab_ab1_apply x h1 i j 0)

/-- A `[1, a, b]` array broadcast along its leading axis to `[m, a, b]` reads, at `(p, i, j)`, the operand's one
    matrix at `(i, j)`. -/
theorem broadcastTo_1ab_mab_apply {m a b : ℕ} (v : (⟨3, ![1, a, b]⟩ : Shape).Idx → α)
    (h : (⟨3, ![1, a, b]⟩ : Shape).Broadcasts ⟨3, ![m, a, b]⟩) (p : Fin m) (i : Fin a) (j : Fin b) :
    broadcastTo ⟨3, ![m, a, b]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

end Cert.LibKeepdims
-- ==== Proof.Payload0.lean ====
/-
  What region 0's body stores, read at an index. Order 0 has one component and uses all 256 channels: for an edge
  `e` of the block and a channel `c` the stored value is `(x0 (e, 0, 0) * x1 (e, c)) * x2 (e, 0, c)`: the
  harmonic factor spread along the channels, the radial factor given a unit middle axis, and the gathered row as it is.
  It is stated in the shape of the higher orders' lemmas (a component `m : Fin 1`, the channel carried along
  `256 ≤ 256`), so that the four regions read alike.
-/
import proofs.«120961_j21474836480309_1_alg».proof.Proof.Gen.KernelIdeal.Skeleton
import proofs.«120961_j21474836480309_1_alg».proof.Proof.LibKeepRow
import proofs.«120961_j21474836480309_1_alg».proof.Proof.LibKeepdims
import Idealize.ShloMosaic.Lib.ValueIdx
import Idealize.ShloMosaic.Lib.Pipeline.Value

namespace Cert.KernelIdeal.Msg

open Idealize.ShloMosaic Idealize.ShloMosaic.ValueIdx Cert.KernelIdeal Cert.KernelIdeal.Gen

/-- Region 0's stored value at `(e, m, c)`. -/
theorem pay0_apply (x0 : Vec Ideal S400x1x1 .f32) (x1 : Vec Ideal S400x256 .f32) (x2 : Vec Ideal S400x1x256 .f32)
    (e : Fin 400) (m : Fin 1) (c : Fin 256) :
    k0_pay1 (F := Ideal) x0 x1 x2 (ix3 e m c)
      = (x0 (ix3 e m (0 : Fin 1)) * x1 (ix2 e c)) * x2 (ix3 e (0 : Fin 1) (Fin.castLE (by decide : 256 ≤ 256) c)) := by
  have hm : m = 0 := Subsingleton.elim _ _
  have hc : Fin.castLE (by decide : 256 ≤ 256) c = c := Fin.ext rfl
  unfold k0_pay1
  simp only [mulf_apply]
  rw [Cert.LibKeepdims.broadcastTo_ab1_abc_apply, Cert.LibKeepRow.shapeCast_ac_a1c_apply, shapeCast_self, hc, hm]

end Cert.KernelIdeal.Msg
-- ==== Proof.Spec.lean ====
/-
  The message an edge sends to its centre, as one function of the three arrays it is made from.

  For an edge `e`, an order component `m` and a channel `c` the message is the product
  `(sh (e, m, 0) * rb (e, c)) * en (e, 0, c)`: the spherical-harmonic factor of the edge's component, the radial factor
  of the edge's channel, and the channel's entry of the embedding row gathered for the edge's neighbour. The gathered
  rows are `KE` channels wide and the message uses the first `K` of them (`K ≤ KE`). The association is the one both
  programs compute in, so no law of the extended reals is needed to compare them.
-/
import Idealize.ShloMosaic.Lib.ValueIdx
import Idealize.ShloMosaic.PureOps.Ideal

namespace Cert.Msg

open Idealize.ShloMosaic Idealize.ShloMosaic.ValueIdx

/-- The message array `[E, M, K]` of the factors `sh : [E, M, 1]`, `rb : [E, K]` and the gathered rows
    `en : [E, 1, KE]`, entry by entry. -/
noncomputable def msg {E M K KE : ℕ} (hK : K ≤ KE) (sh : FVec Ideal ⟨3, ![E, M, 1]⟩ .f32) (rb : FVec Ideal ⟨2, ![E, K]⟩ .f32)
    (en : FVec Ideal ⟨3, ![E, 1, KE]⟩ .f32) : FVec Ideal ⟨3, ![E, M, K]⟩ .f32 :=
  fun i => (sh (ix3 (i 0) (i 1) (0 : Fin 1)) * rb (ix2 (i 0) (i 2)))
    * en (ix3 (i 0) (0 : Fin 1) (Fin.castLE hK (i 2)))

/-- The message at an index given by its coordinates. -/
theorem msg_ix3 {E M K KE : ℕ} (hK : K ≤ KE) (sh : FVec Ideal ⟨3, ![E, M, 1]⟩ .f32) (rb : FVec Ideal ⟨2, ![E, K]⟩ .f32)
    (en : FVec Ideal ⟨3, ![E, 1, KE]⟩ .f32) (e : Fin E) (m : Fin M) (c : Fin K) :
    msg hK sh rb en (ix3 e m c)
      = (sh (ix3 e m (0 : Fin 1)) * rb (ix2 e c)) * en (ix3 e (0 : Fin 1) (Fin.castLE hK c)) := rfl

end Cert.Msg
-- ==== Proof.Region0.lean ====
/-
  Region 0 (order 0: 1 components, 256 channels), from its blocks to its array.

  The region walks the 250000 edges in 625 blocks of 400. At point `t` every window sits on block `t` of its array
  along the edge axis and on the whole of the other axes, so row `e` of a block is edge `400 t + e`. The body's stored
  value at `(e, m, c)` is the message of that edge (Payload0), hence what point `t` writes back is block `t` of the message
  array; the blocks tile the edge axis (edge `E` lies in block `E / 400`), so after the region the output array holds the
  message array whole, whatever contents `V` the region was entered with.
-/
import proofs.«120961_j21474836480309_1_alg».proof.Proof.Gen.KernelIdeal.Frame
import proofs.«120961_j21474836480309_1_alg».proof.Proof.Payload0
import proofs.«120961_j21474836480309_1_alg».proof.Proof.Spec

set_option maxRecDepth 16384

noncomputable section

namespace Cert.KernelIdeal.Msg

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeros3_0 : (![0, 0, 0] : Fin 3 → Nat) = fun _ => 0 := funext fun a => by fin_cases a <;> rfl
theorem zeros2_0 : (![0, 0] : Fin 2 → Nat) = fun _ => 0 := funext fun a => by fin_cases a <;> rfl

/-- The three arrays region 0 reads, as it finds them: the harmonic factors, the radial factors, the gathered rows. -/
abbrev sh0 (c : Dev nD) : FVec Ideal S250000x1x1 .f32 := V c main_arg0
abbrev rb0 (c : Dev nD) : FVec Ideal S250000x256 .f32 := V c main_arg4
abbrev en0 (c : Dev nD) : FVec Ideal S250000x1x256 .f32 := V c main_v6

/-- The message array of order 0 of those three. -/
abbrev msgArr0 (c : Dev nD) : FVec Ideal S250000x1x256 .f32 :=
  Cert.Msg.msg (by decide : 256 ≤ 256) (sh0 V c) (rb0 V c) (en0 V c)

/-- The printed index maps, decided over the grid: at point `t` every window is on block `t` of the edge axis and on
    block 0 of every other axis. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- WHAT POINT `t` WRITES BACK is block `t` of the message array. -/
theorem flushed0 (c : Dev nD) (t : Fin cfg0.N) :
    (dat0 V c).flushed 3 t = ((cfg0.win 3).blk t).view.read (Elt Ideal) (msgArr0 V c) := by
  show (cfg0.win 3).cut (grid0.coords t) ((dat0 V c).after 3 t) = _
  rw [after0_3]
  unfold out0_3
  rw [View.canon_unit_zero zeros3_0]
  simp only [View.ld_unit_zero (S := S400x1x1) zeros3_0, View.ld_unit_zero (S := S400x256) zeros2_0,
    View.ld_unit_zero (S := S400x1x256) zeros3_0]
  obtain ⟨a00, a01, a02, a10, a11, a20, a21, a22, a30, a31, a32⟩ := idx_facts0 t
  have ht : t.val < 625 := lt_of_lt_of_eq t.isLt N_0
  funext j
  obtain ⟨e, m, k, rfl⟩ : ∃ (e : Fin 400) (m : Fin 1) (k : Fin 256), j = ix3 e m k := ⟨j 0, j 1, j 2, eq_ix3 j⟩
  refine (pay0_apply (iblk0 V c 0 t) (iblk0 V c 1 t) (iblk0 V c 2 t) e m k).trans ?_
  have hE : t.val * 400 + e.val < 250000 := by have := e.isLt; omega
  have h0 : ((cfg0.win 0).blk t).view.emb (ix3 e m (0 : Fin 1)) = ix3 (⟨t.val * 400 + e.val, hE⟩ : Fin 250000) m (0 : Fin 1) := by
    funext a; apply Fin.ext
    match a with
    | ⟨0, _⟩ => show win0_0.index t (0 : Fin 3) * 400 + 1 * e.val = t.val * 400 + e.val; omega
    | ⟨1, _⟩ => show win0_0.index t (1 : Fin 3) * 1 + 1 * m.val = m.val; omega
    | ⟨2, _⟩ => show win0_0.index t (2 : Fin 3) * 1 + 1 * 0 = 0; omega
  have h1 : ((cfg0.win 1).blk t).view.emb (ix2 e k) = ix2 (⟨t.val * 400 + e.val, hE⟩ : Fin 250000) k := by
    funext a; apply Fin.ext
    match a with
    | ⟨0, _⟩ => show win0_1.index t (0 : Fin 2) * 400 + 1 * e.val = t.val * 400 + e.val; omega
    | ⟨1, _⟩ => show win0_1.index t (1 : Fin 2) * 256 + 1 * k.val = k.val; omega
  have h2 : ((cfg0.win 2).blk t).view.emb (ix3 e (0 : Fin 1) (Fin.castLE (by decide : 256 ≤ 256) k))
      = ix3 (⟨t.val * 400 + e.val, hE⟩ : Fin 250000) (0 : Fin 1) (Fin.castLE (by decide : 256 ≤ 256) k) := by
    funext a; apply Fin.ext
    match a with
    | ⟨0, _⟩ => show win0_2.index t (0 : Fin 3) * 400 + 1 * e.val = t.val * 400 + e.val; omega
    | ⟨1, _⟩ => show win0_2.index t (1 : Fin 3) * 1 + 1 * 0 = 0; omega
    | ⟨2, _⟩ => show win0_2.index t (2 : Fin 3) * 256 + 1 * k.val = k.val; omega
  have h3 : ((cfg0.win 3).blk t).view.emb (ix3 e m k) = ix3 (⟨t.val * 400 + e.val, hE⟩ : Fin 250000) m k := by
    funext a; apply Fin.ext
    match a with
    | ⟨0, _⟩ => show win0_3.index t (0 : Fin 3) * 400 + 1 * e.val = t.val * 400 + e.val; omega
    | ⟨1, _⟩ => show win0_3.index t (1 : Fin 3) * 1 + 1 * m.val = m.val; omega
    | ⟨2, _⟩ => show win0_3.index t (2 : Fin 3) * 256 + 1 * k.val = k.val; omega
  show (sh0 V c (((cfg0.win 0).blk t).view.emb (ix3 e m (0 : Fin 1))) * rb0 V c (((cfg0.win 1).blk t).view.emb (ix2 e k)))
      * en0 V c (((cfg0.win 2).blk t).view.emb (ix3 e (0 : Fin 1) (Fin.castLE (by decide : 256 ≤ 256) k)))
    = msgArr0 V c (((cfg0.win 3).blk t).view.emb (ix3 e m k))
  rw [h0, h1, h2, h3]
  rfl

/-- An index of the output array is in point `t`'s block iff each coordinate is in the block's range on its axis. -/
theorem mem_blk0 (t : Fin cfg0.N) (i : S250000x1x256.Idx) :
    i ∈ ((cfg0.win 3).blk t).view.set ↔ ∀ a : Fin 3, win0_3.index t a * S400x1x256.size a ≤ (i a).val
      ∧ (i a).val < win0_3.index t a * S400x1x256.size a + S400x1x256.size a := by
  show i ∈ ((View.whole main_v7).slice (win0_3.rect t)).set ↔ _
  rw [View.set_slice_whole, Rect.mem_set_unit]
  exact Iff.rfl

/-- THE BLOCKS TILE THE ARRAY: edge `E` lies in the block of point `E / 400`. -/
theorem cover0 (i : S250000x1x256.Idx) :
    ∃ t : Fin cfg0.N, (cfg0.win 3).flush t = true ∧ i ∈ ((cfg0.win 3).blk t).view.set := by
  have hi0 : (i 0).val < 250000 := (i 0).isLt
  have hi1 : (i 1).val < 1 := (i 1).isLt
  have hi2 : (i 2).val < 256 := (i 2).isLt
  have hN : (i 0).val / 400 < cfg0.N := lt_of_lt_of_eq (by omega : (i 0).val / 400 < 625) N_0.symm
  obtain ⟨-, -, -, -, -, -, -, -, a30, a31, a32⟩ := idx_facts0 ⟨(i 0).val / 400, hN⟩
  have a30' : win0_3.index ⟨(i 0).val / 400, hN⟩ (0 : Fin 3) = (i 0).val / 400 := a30
  refine ⟨⟨(i 0).val / 400, hN⟩, flush0_3 _, ?_⟩
  rw [mem_blk0]
  intro a
  match a with
  | ⟨0, _⟩ =>
    show win0_3.index ⟨(i 0).val / 400, hN⟩ (0 : Fin 3) * 400 ≤ (i 0).val
      ∧ (i 0).val < win0_3.index ⟨(i 0).val / 400, hN⟩ (0 : Fin 3) * 400 + 400
    omega
  | ⟨1, _⟩ =>
    show win0_3.index ⟨(i 0).val / 400, hN⟩ (1 : Fin 3) * 1 ≤ (i 1).val
      ∧ (i 1).val < win0_3.index ⟨(i 0).val / 400, hN⟩ (1 : Fin 3) * 1 + 1
    omega
  | ⟨2, _⟩ =>
    show win0_3.index ⟨(i 0).val / 400, hN⟩ (2 : Fin 3) * 256 ≤ (i 2).val
      ∧ (i 2).val < win0_3.index ⟨(i 0).val / 400, hN⟩ (2 : Fin 3) * 256 + 256
    omega

/-- THE ARRAY after region 0: the message array of order 0 of the arrays the region was entered with. -/
theorem arr0 (c : Dev nD) : (dat0 V c).arrAt 3 cfg0.N = msgArr0 V c :=
  (dat0 V c).arrAt_eq_of_cover 3 (msgArr0 V c) (fun t _ => flushed0 V c t) cover0

end Cert.KernelIdeal.Msg

end
-- ==== Proof.LibSliceLanes.lean ====
/-
  The leading channels of a row, read at an index.

  A unit-stride slice at offset zero along every axis keeps the first `K` of the `KE` entries of the last axis
  (`x[:, :, :K]`): entry `c` of the slice is entry `c` of the operand, carried along `K ≤ KE`. Stated for an
  `[a, 1, KE]` operand, any sizes and element type.
-/
import Idealize.ShloMosaic.Lib.ValueIdx
import Idealize.ShloMosaic.Lib.Pipeline.Value

namespace Cert.LibSliceLanes

open Idealize.ShloMosaic Idealize.ShloMosaic.ValueIdx

/-- The first `K` channels of a `KE`-wide row, sliced at offset zero: channel `c` of the slice is channel `c` of
    the row. -/
theorem slice_lanes_apply {α : Type} {a K KE : ℕ} (hK : K ≤ KE) (x : (⟨3, ![a, 1, KE]⟩ : Shape).Idx → α)
    (h : (⟨3, ![a, 1, KE]⟩ : Shape).Slices ![0, 0, 0] ⟨3, ![a, 1, K]⟩) (e : Fin a) (u : Fin 1) (c : Fin K) :
    extractStridedSlice ⟨3, ![a, 1, K]⟩ ![0, 0, 0] x h (ix3 e u c) = x (ix3 e u (Fin.castLE hK c)) :=
  extractStridedSlice_apply ![0, 0, 0] x h (ix3 e u c) (ix3 e u (Fin.castLE hK c)) fun ax => by
    match ax with
    | ⟨0, _⟩ => show e.val = 0 + e.val; omega
    | ⟨1, _⟩ => show u.val = 0 + u.val; omega
    | ⟨2, _⟩ => show c.val = 0 + c.val; omega

end Cert.LibSliceLanes
-- ==== Proof.Payload1.lean ====
/-
  What region 1's body stores, read at an index: for an edge `e` of the block, a component `m` and a channel `c`,
  the stored value is `(x0 (e, m, 0) * x1 (e, c)) * x2 (e, 0, c)` of the three loaded blocks: the harmonic
  factor spread along the channels, the radial factor given a unit middle axis and spread along the components, and
  the first 192 channels of the gathered rows spread along the components.
-/
import proofs.«120961_j21474836480309_1_alg».proof.Proof.Gen.KernelIdeal.Skeleton
import proofs.«120961_j21474836480309_1_alg».proof.Proof.LibKeepRow
import proofs.«120961_j21474836480309_1_alg».proof.Proof.LibKeepdims
import proofs.«120961_j21474836480309_1_alg».proof.Proof.LibSliceLanes
import Idealize.ShloMosaic.Lib.ValueIdx
import Idealize.ShloMosaic.Lib.Pipeline.Value

namespace Cert.KernelIdeal.Msg

open Idealize.ShloMosaic Idealize.ShloMosaic.ValueIdx Cert.KernelIdeal Cert.KernelIdeal.Gen

/-- Region 1's stored value at `(e, m, c)`. -/
theorem pay1_apply (x0 : Vec Ideal S400x3x1 .f32) (x1 : Vec Ideal S400x192 .f32) (x2 : Vec Ideal S400x1x256 .f32)
    (e : Fin 400) (m : Fin 3) (c : Fin 192) :
    k1_pay1 (F := Ideal) x0 x1 x2 (ix3 e m c)
      = (x0 (ix3 e m (0 : Fin 1)) * x1 (ix2 e c)) * x2 (ix3 e (0 : Fin 1) (Fin.castLE (by decide : 192 ≤ 256) c)) := by
  unfold k1_pay1
  simp only [mulf_apply]
  rw [Cert.LibKeepdims.broadcastTo_ab1_abc_apply, Cert.LibKeepRow.keptRow_apply, Cert.LibKeepRow.broadcastTo_a1c_abc_apply,
    Cert.LibSliceLanes.slice_lanes_apply (by decide : 192 ≤ 256), shapeCast_self]

end Cert.KernelIdeal.Msg
-- ==== Proof.Region1.lean ====
/-
  Region 1 (order 1: 3 components, 192 channels), from its blocks to its array.

  The region walks the 250000 edges in 625 blocks of 400. At point `t` every window sits on block `t` of its array
  along the edge axis and on the whole of the other axes, so row `e` of a block is edge `400 t + e`. The body's stored
  value at `(e, m, c)` is the message of that edge (Payload1), hence what point `t` writes back is block `t` of the message
  array; the blocks tile the edge axis (edge `E` lies in block `E / 400`), so after the region the output array holds the
  message array whole, whatever contents `V` the region was entered with.
-/
import proofs.«120961_j21474836480309_1_alg».proof.Proof.Gen.KernelIdeal.Frame
import proofs.«120961_j21474836480309_1_alg».proof.Proof.Payload1
import proofs.«120961_j21474836480309_1_alg».proof.Proof.Spec

set_option maxRecDepth 16384

noncomputable section

namespace Cert.KernelIdeal.Msg

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeros3_1 : (![0, 0, 0] : Fin 3 → Nat) = fun _ => 0 := funext fun a => by fin_cases a <;> rfl
theorem zeros2_1 : (![0, 0] : Fin 2 → Nat) = fun _ => 0 := funext fun a => by fin_cases a <;> rfl

/-- The three arrays region 1 reads, as it finds them: the harmonic factors, the radial factors, the gathered rows. -/
abbrev sh1 (c : Dev nD) : FVec Ideal S250000x3x1 .f32 := V c main_arg1
abbrev rb1 (c : Dev nD) : FVec Ideal S250000x192 .f32 := V c main_arg5
abbrev en1 (c : Dev nD) : FVec Ideal S250000x1x256 .f32 := V c main_v6

/-- The message array of order 1 of those three. -/
abbrev msgArr1 (c : Dev nD) : FVec Ideal S250000x3x192 .f32 :=
  Cert.Msg.msg (by decide : 192 ≤ 256) (sh1 V c) (rb1 V c) (en1 V c)

/-- The printed index maps, decided over the grid: at point `t` every window is on block `t` of the edge axis and on
    block 0 of every other axis. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- WHAT POINT `t` WRITES BACK is block `t` of the message array. -/
theorem flushed1 (c : Dev nD) (t : Fin cfg1.N) :
    (dat1 V c).flushed 3 t = ((cfg1.win 3).blk t).view.read (Elt Ideal) (msgArr1 V c) := by
  show (cfg1.win 3).cut (grid1.coords t) ((dat1 V c).after 3 t) = _
  rw [after1_3]
  unfold out1_3
  rw [View.canon_unit_zero zeros3_1]
  simp only [View.ld_unit_zero (S := S400x3x1) zeros3_1, View.ld_unit_zero (S := S400x192) zeros2_1,
    View.ld_unit_zero (S := S400x1x256) zeros3_1]
  obtain ⟨a00, a01, a02, a10, a11, a20, a21, a22, a30, a31, a32⟩ := idx_facts1 t
  have ht : t.val < 625 := lt_of_lt_of_eq t.isLt N_1
  funext j
  obtain ⟨e, m, k, rfl⟩ : ∃ (e : Fin 400) (m : Fin 3) (k : Fin 192), j = ix3 e m k := ⟨j 0, j 1, j 2, eq_ix3 j⟩
  refine (pay1_apply (iblk1 V c 0 t) (iblk1 V c 1 t) (iblk1 V c 2 t) e m k).trans ?_
  have hE : t.val * 400 + e.val < 250000 := by have := e.isLt; omega
  have h0 : ((cfg1.win 0).blk t).view.emb (ix3 e m (0 : Fin 1)) = ix3 (⟨t.val * 400 + e.val, hE⟩ : Fin 250000) m (0 : Fin 1) := by
    funext a; apply Fin.ext
    match a with
    | ⟨0, _⟩ => show win1_0.index t (0 : Fin 3) * 400 + 1 * e.val = t.val * 400 + e.val; omega
    | ⟨1, _⟩ => show win1_0.index t (1 : Fin 3) * 3 + 1 * m.val = m.val; omega
    | ⟨2, _⟩ => show win1_0.index t (2 : Fin 3) * 1 + 1 * 0 = 0; omega
  have h1 : ((cfg1.win 1).blk t).view.emb (ix2 e k) = ix2 (⟨t.val * 400 + e.val, hE⟩ : Fin 250000) k := by
    funext a; apply Fin.ext
    match a with
    | ⟨0, _⟩ => show win1_1.index t (0 : Fin 2) * 400 + 1 * e.val = t.val * 400 + e.val; omega
    | ⟨1, _⟩ => show win1_1.index t (1 : Fin 2) * 192 + 1 * k.val = k.val; omega
  have h2 : ((cfg1.win 2).blk t).view.emb (ix3 e (0 : Fin 1) (Fin.castLE (by decide : 192 ≤ 256) k))
      = ix3 (⟨t.val * 400 + e.val, hE⟩ : Fin 250000) (0 : Fin 1) (Fin.castLE (by decide : 192 ≤ 256) k) := by
    funext a; apply Fin.ext
    match a with
    | ⟨0, _⟩ => show win1_2.index t (0 : Fin 3) * 400 + 1 * e.val = t.val * 400 + e.val; omega
    | ⟨1, _⟩ => show win1_2.index t (1 : Fin 3) * 1 + 1 * 0 = 0; omega
    | ⟨2, _⟩ => show win1_2.index t (2 : Fin 3) * 256 + 1 * k.val = k.val; omega
  have h3 : ((cfg1.win 3).blk t).view.emb (ix3 e m k) = ix3 (⟨t.val * 400 + e.val, hE⟩ : Fin 250000) m k := by
    funext a; apply Fin.ext
    match a with
    | ⟨0, _⟩ => show win1_3.index t (0 : Fin 3) * 400 + 1 * e.val = t.val * 400 + e.val; omega
    | ⟨1, _⟩ => show win1_3.index t (1 : Fin 3) * 3 + 1 * m.val = m.val; omega
    | ⟨2, _⟩ => show win1_3.index t (2 : Fin 3) * 192 + 1 * k.val = k.val; omega
  show (sh1 V c (((cfg1.win 0).blk t).view.emb (ix3 e m (0 : Fin 1))) * rb1 V c (((cfg1.win 1).blk t).view.emb (ix2 e k)))
      * en1 V c (((cfg1.win 2).blk t).view.emb (ix3 e (0 : Fin 1) (Fin.castLE (by decide : 192 ≤ 256) k)))
    = msgArr1 V c (((cfg1.win 3).blk t).view.emb (ix3 e m k))
  rw [h0, h1, h2, h3]
  rfl

/-- An index of the output array is in point `t`'s block iff each coordinate is in the block's range on its axis. -/
theorem mem_blk1 (t : Fin cfg1.N) (i : S250000x3x192.Idx) :
    i ∈ ((cfg1.win 3).blk t).view.set ↔ ∀ a : Fin 3, win1_3.index t a * S400x3x192.size a ≤ (i a).val
      ∧ (i a).val < win1_3.index t a * S400x3x192.size a + S400x3x192.size a := by
  show i ∈ ((View.whole main_v11).slice (win1_3.rect t)).set ↔ _
  rw [View.set_slice_whole, Rect.mem_set_unit]
  exact Iff.rfl

/-- THE BLOCKS TILE THE ARRAY: edge `E` lies in the block of point `E / 400`. -/
theorem cover1 (i : S250000x3x192.Idx) :
    ∃ t : Fin cfg1.N, (cfg1.win 3).flush t = true ∧ i ∈ ((cfg1.win 3).blk t).view.set := by
  have hi0 : (i 0).val < 250000 := (i 0).isLt
  have hi1 : (i 1).val < 3 := (i 1).isLt
  have hi2 : (i 2).val < 192 := (i 2).isLt
  have hN : (i 0).val / 400 < cfg1.N := lt_of_lt_of_eq (by omega : (i 0).val / 400 < 625) N_1.symm
  obtain ⟨-, -, -, -, -, -, -, -, a30, a31, a32⟩ := idx_facts1 ⟨(i 0).val / 400, hN⟩
  have a30' : win1_3.index ⟨(i 0).val / 400, hN⟩ (0 : Fin 3) = (i 0).val / 400 := a30
  refine ⟨⟨(i 0).val / 400, hN⟩, flush1_3 _, ?_⟩
  rw [mem_blk1]
  intro a
  match a with
  | ⟨0, _⟩ =>
    show win1_3.index ⟨(i 0).val / 400, hN⟩ (0 : Fin 3) * 400 ≤ (i 0).val
      ∧ (i 0).val < win1_3.index ⟨(i 0).val / 400, hN⟩ (0 : Fin 3) * 400 + 400
    omega
  | ⟨1, _⟩ =>
    show win1_3.index ⟨(i 0).val / 400, hN⟩ (1 : Fin 3) * 3 ≤ (i 1).val
      ∧ (i 1).val < win1_3.index ⟨(i 0).val / 400, hN⟩ (1 : Fin 3) * 3 + 3
    omega
  | ⟨2, _⟩ =>
    show win1_3.index ⟨(i 0).val / 400, hN⟩ (2 : Fin 3) * 192 ≤ (i 2).val
      ∧ (i 2).val < win1_3.index ⟨(i 0).val / 400, hN⟩ (2 : Fin 3) * 192 + 192
    omega

/-- THE ARRAY after region 1: the message array of order 1 of the arrays the region was entered with. -/
theorem arr1 (c : Dev nD) : (dat1 V c).arrAt 3 cfg1.N = msgArr1 V c :=
  (dat1 V c).arrAt_eq_of_cover 3 (msgArr1 V c) (fun t _ => flushed1 V c t) cover1

end Cert.KernelIdeal.Msg

end
-- ==== Proof.Payload2.lean ====
/-
  What region 2's body stores, read at an index: for an edge `e` of the block, a component `m` and a channel `c`,
  the stored value is `(x0 (e, m, 0) * x1 (e, c)) * x2 (e, 0, c)` of the three loaded blocks: the harmonic
  factor spread along the channels, the radial factor given a unit middle axis and spread along the components, and
  the first 128 channels of the gathered rows spread along the components.
-/
import proofs.«120961_j21474836480309_1_alg».proof.Proof.Gen.KernelIdeal.Skeleton
import proofs.«120961_j21474836480309_1_alg».proof.Proof.LibKeepRow
import proofs.«120961_j21474836480309_1_alg».proof.Proof.LibKeepdims
import proofs.«120961_j21474836480309_1_alg».proof.Proof.LibSliceLanes
import Idealize.ShloMosaic.Lib.ValueIdx
import Idealize.ShloMosaic.Lib.Pipeline.Value

namespace Cert.KernelIdeal.Msg

open Idealize.ShloMosaic Idealize.ShloMosaic.ValueIdx Cert.KernelIdeal Cert.KernelIdeal.Gen

/-- Region 2's stored value at `(e, m, c)`. -/
theorem pay2_apply (x0 : Vec Ideal S1000x5x1 .f32) (x1 : Vec Ideal S1000x128 .f32) (x2 : Vec Ideal S1000x1x256 .f32)
    (e : Fin 1000) (m : Fin 5) (c : Fin 128) :
    k2_pay1 (F := Ideal) x0 x1 x2 (ix3 e m c)
      = (x0 (ix3 e m (0 : Fin 1)) * x1 (ix2 e c)) * x2 (ix3 e (0 : Fin 1) (Fin.castLE (by decide : 128 ≤ 256) c)) := by
  unfold k2_pay1
  simp only [mulf_apply]
  rw [Cert.LibKeepdims.broadcastTo_ab1_abc_apply, Cert.LibKeepRow.keptRow_apply, Cert.LibKeepRow.broadcastTo_a1c_abc_apply,
    Cert.LibSliceLanes.slice_lanes_apply (by decide : 128 ≤ 256), shapeCast_self]

end Cert.KernelIdeal.Msg
-- ==== Proof.Region2.lean ====
/-
  Region 2 (order 2: 5 components, 128 channels), from its blocks to its array.

  The region walks the 250000 edges in 250 blocks of 1000. At point `t` every window sits on block `t` of its array
  along the edge axis and on the whole of the other axes, so row `e` of a block is edge `1000 t + e`. The body's stored
  value at `(e, m, c)` is the message of that edge (Payload2), hence what point `t` writes back is block `t` of the message
  array; the blocks tile the edge axis (edge `E` lies in block `E / 1000`), so after the region the output array holds the
  message array whole, whatever contents `V` the region was entered with.
-/
import proofs.«120961_j21474836480309_1_alg».proof.Proof.Gen.KernelIdeal.Frame
import proofs.«120961_j21474836480309_1_alg».proof.Proof.Payload2
import proofs.«120961_j21474836480309_1_alg».proof.Proof.Spec

set_option maxRecDepth 16384

noncomputable section

namespace Cert.KernelIdeal.Msg

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeros3_2 : (![0, 0, 0] : Fin 3 → Nat) = fun _ => 0 := funext fun a => by fin_cases a <;> rfl
theorem zeros2_2 : (![0, 0] : Fin 2 → Nat) = fun _ => 0 := funext fun a => by fin_cases a <;> rfl

/-- The three arrays region 2 reads, as it finds them: the harmonic factors, the radial factors, the gathered rows. -/
abbrev sh2 (c : Dev nD) : FVec Ideal S250000x5x1 .f32 := V c main_arg2
abbrev rb2 (c : Dev nD) : FVec Ideal S250000x128 .f32 := V c main_arg6
abbrev en2 (c : Dev nD) : FVec Ideal S250000x1x256 .f32 := V c main_v6

/-- The message array of order 2 of those three. -/
abbrev msgArr2 (c : Dev nD) : FVec Ideal S250000x5x128 .f32 :=
  Cert.Msg.msg (by decide : 128 ≤ 256) (sh2 V c) (rb2 V c) (en2 V c)

/-- The printed index maps, decided over the grid: at point `t` every window is on block `t` of the edge axis and on
    block 0 of every other axis. -/
theorem idx_facts2 : ∀ t : Fin cfg2.N,
    win2_0.index t (0 : Fin 3) = t.val ∧ win2_0.index t (1 : Fin 3) = 0 ∧ win2_0.index t (2 : Fin 3) = 0
    ∧ win2_1.index t (0 : Fin 2) = t.val ∧ win2_1.index t (1 : Fin 2) = 0
    ∧ win2_2.index t (0 : Fin 3) = t.val ∧ win2_2.index t (1 : Fin 3) = 0 ∧ win2_2.index t (2 : Fin 3) = 0
    ∧ win2_3.index t (0 : Fin 3) = t.val ∧ win2_3.index t (1 : Fin 3) = 0 ∧ win2_3.index t (2 : Fin 3) = 0 :=
  (by decide +kernel : ∀ t : Fin grid2.N, _)

/-- WHAT POINT `t` WRITES BACK is block `t` of the message array. -/
theorem flushed2 (c : Dev nD) (t : Fin cfg2.N) :
    (dat2 V c).flushed 3 t = ((cfg2.win 3).blk t).view.read (Elt Ideal) (msgArr2 V c) := by
  show (cfg2.win 3).cut (grid2.coords t) ((dat2 V c).after 3 t) = _
  rw [after2_3]
  unfold out2_3
  rw [View.canon_unit_zero zeros3_2]
  simp only [View.ld_unit_zero (S := S1000x5x1) zeros3_2, View.ld_unit_zero (S := S1000x128) zeros2_2,
    View.ld_unit_zero (S := S1000x1x256) zeros3_2]
  obtain ⟨a00, a01, a02, a10, a11, a20, a21, a22, a30, a31, a32⟩ := idx_facts2 t
  have ht : t.val < 250 := lt_of_lt_of_eq t.isLt N_2
  funext j
  obtain ⟨e, m, k, rfl⟩ : ∃ (e : Fin 1000) (m : Fin 5) (k : Fin 128), j = ix3 e m k := ⟨j 0, j 1, j 2, eq_ix3 j⟩
  refine (pay2_apply (iblk2 V c 0 t) (iblk2 V c 1 t) (iblk2 V c 2 t) e m k).trans ?_
  have hE : t.val * 1000 + e.val < 250000 := by have := e.isLt; omega
  have h0 : ((cfg2.win 0).blk t).view.emb (ix3 e m (0 : Fin 1)) = ix3 (⟨t.val * 1000 + e.val, hE⟩ : Fin 250000) m (0 : Fin 1) := by
    funext a; apply Fin.ext
    match a with
    | ⟨0, _⟩ => show win2_0.index t (0 : Fin 3) * 1000 + 1 * e.val = t.val * 1000 + e.val; omega
    | ⟨1, _⟩ => show win2_0.index t (1 : Fin 3) * 5 + 1 * m.val = m.val; omega
    | ⟨2, _⟩ => show win2_0.index t (2 : Fin 3) * 1 + 1 * 0 = 0; omega
  have h1 : ((cfg2.win 1).blk t).view.emb (ix2 e k) = ix2 (⟨t.val * 1000 + e.val, hE⟩ : Fin 250000) k := by
    funext a; apply Fin.ext
    match a with
    | ⟨0, _⟩ => show win2_1.index t (0 : Fin 2) * 1000 + 1 * e.val = t.val * 1000 + e.val; omega
    | ⟨1, _⟩ => show win2_1.index t (1 : Fin 2) * 128 + 1 * k.val = k.val; omega
  have h2 : ((cfg2.win 2).blk t).view.emb (ix3 e (0 : Fin 1) (Fin.castLE (by decide : 128 ≤ 256) k))
      = ix3 (⟨t.val * 1000 + e.val, hE⟩ : Fin 250000) (0 : Fin 1) (Fin.castLE (by decide : 128 ≤ 256) k) := by
    funext a; apply Fin.ext
    match a with
    | ⟨0, _⟩ => show win2_2.index t (0 : Fin 3) * 1000 + 1 * e.val = t.val * 1000 + e.val; omega
    | ⟨1, _⟩ => show win2_2.index t (1 : Fin 3) * 1 + 1 * 0 = 0; omega
    | ⟨2, _⟩ => show win2_2.index t (2 : Fin 3) * 256 + 1 * k.val = k.val; omega
  have h3 : ((cfg2.win 3).blk t).view.emb (ix3 e m k) = ix3 (⟨t.val * 1000 + e.val, hE⟩ : Fin 250000) m k := by
    funext a; apply Fin.ext
    match a with
    | ⟨0, _⟩ => show win2_3.index t (0 : Fin 3) * 1000 + 1 * e.val = t.val * 1000 + e.val; omega
    | ⟨1, _⟩ => show win2_3.index t (1 : Fin 3) * 5 + 1 * m.val = m.val; omega
    | ⟨2, _⟩ => show win2_3.index t (2 : Fin 3) * 128 + 1 * k.val = k.val; omega
  show (sh2 V c (((cfg2.win 0).blk t).view.emb (ix3 e m (0 : Fin 1))) * rb2 V c (((cfg2.win 1).blk t).view.emb (ix2 e k)))
      * en2 V c (((cfg2.win 2).blk t).view.emb (ix3 e (0 : Fin 1) (Fin.castLE (by decide : 128 ≤ 256) k)))
    = msgArr2 V c (((cfg2.win 3).blk t).view.emb (ix3 e m k))
  rw [h0, h1, h2, h3]
  rfl

/-- An index of the output array is in point `t`'s block iff each coordinate is in the block's range on its axis. -/
theorem mem_blk2 (t : Fin cfg2.N) (i : S250000x5x128.Idx) :
    i ∈ ((cfg2.win 3).blk t).view.set ↔ ∀ a : Fin 3, win2_3.index t a * S1000x5x128.size a ≤ (i a).val
      ∧ (i a).val < win2_3.index t a * S1000x5x128.size a + S1000x5x128.size a := by
  show i ∈ ((View.whole main_v15).slice (win2_3.rect t)).set ↔ _
  rw [View.set_slice_whole, Rect.mem_set_unit]
  exact Iff.rfl

/-- THE BLOCKS TILE THE ARRAY: edge `E` lies in the block of point `E / 1000`. -/
theorem cover2 (i : S250000x5x128.Idx) :
    ∃ t : Fin cfg2.N, (cfg2.win 3).flush t = true ∧ i ∈ ((cfg2.win 3).blk t).view.set := by
  have hi0 : (i 0).val < 250000 := (i 0).isLt
  have hi1 : (i 1).val < 5 := (i 1).isLt
  have hi2 : (i 2).val < 128 := (i 2).isLt
  have hN : (i 0).val / 1000 < cfg2.N := lt_of_lt_of_eq (by omega : (i 0).val / 1000 < 250) N_2.symm
  obtain ⟨-, -, -, -, -, -, -, -, a30, a31, a32⟩ := idx_facts2 ⟨(i 0).val / 1000, hN⟩
  have a30' : win2_3.index ⟨(i 0).val / 1000, hN⟩ (0 : Fin 3) = (i 0).val / 1000 := a30
  refine ⟨⟨(i 0).val / 1000, hN⟩, flush2_3 _, ?_⟩
  rw [mem_blk2]
  intro a
  match a with
  | ⟨0, _⟩ =>
    show win2_3.index ⟨(i 0).val / 1000, hN⟩ (0 : Fin 3) * 1000 ≤ (i 0).val
      ∧ (i 0).val < win2_3.index ⟨(i 0).val / 1000, hN⟩ (0 : Fin 3) * 1000 + 1000
    omega
  | ⟨1, _⟩ =>
    show win2_3.index ⟨(i 0).val / 1000, hN⟩ (1 : Fin 3) * 5 ≤ (i 1).val
      ∧ (i 1).val < win2_3.index ⟨(i 0).val / 1000, hN⟩ (1 : Fin 3) * 5 + 5
    omega
  | ⟨2, _⟩ =>
    show win2_3.index ⟨(i 0).val / 1000, hN⟩ (2 : Fin 3) * 128 ≤ (i 2).val
      ∧ (i 2).val < win2_3.index ⟨(i 0).val / 1000, hN⟩ (2 : Fin 3) * 128 + 128
    omega

/-- THE ARRAY after region 2: the message array of order 2 of the arrays the region was entered with. -/
theorem arr2 (c : Dev nD) : (dat2 V c).arrAt 3 cfg2.N = msgArr2 V c :=
  (dat2 V c).arrAt_eq_of_cover 3 (msgArr2 V c) (fun t _ => flushed2 V c t) cover2

end Cert.KernelIdeal.Msg

end
-- ==== Proof.Payload3.lean ====
/-
  What region 3's body stores, read at an index: for an edge `e` of the block, a component `m` and a channel `c`,
  the stored value is `(x0 (e, m, 0) * x1 (e, c)) * x2 (e, 0, c)` of the three loaded blocks: the harmonic
  factor spread along the channels, the radial factor given a unit middle axis and spread along the components, and
  the first 64 channels of the gathered rows spread along the components.
-/
import proofs.«120961_j21474836480309_1_alg».proof.Proof.Gen.KernelIdeal.Skeleton
import proofs.«120961_j21474836480309_1_alg».proof.Proof.LibKeepRow
import proofs.«120961_j21474836480309_1_alg».proof.Proof.LibKeepdims
import proofs.«120961_j21474836480309_1_alg».proof.Proof.LibSliceLanes
import Idealize.ShloMosaic.Lib.ValueIdx
import Idealize.ShloMosaic.Lib.Pipeline.Value

namespace Cert.KernelIdeal.Msg

open Idealize.ShloMosaic Idealize.ShloMosaic.ValueIdx Cert.KernelIdeal Cert.KernelIdeal.Gen

/-- Region 3's stored value at `(e, m, c)`. -/
theorem pay3_apply (x0 : Vec Ideal S1000x7x1 .f32) (x1 : Vec Ideal S1000x64 .f32) (x2 : Vec Ideal S1000x1x256 .f32)
    (e : Fin 1000) (m : Fin 7) (c : Fin 64) :
    k3_pay1 (F := Ideal) x0 x1 x2 (ix3 e m c)
      = (x0 (ix3 e m (0 : Fin 1)) * x1 (ix2 e c)) * x2 (ix3 e (0 : Fin 1) (Fin.castLE (by decide : 64 ≤ 256) c)) := by
  unfold k3_pay1
  simp only [mulf_apply]
  rw [Cert.LibKeepdims.broadcastTo_ab1_abc_apply, Cert.LibKeepRow.keptRow_apply, Cert.LibKeepRow.broadcastTo_a1c_abc_apply,
    Cert.LibSliceLanes.slice_lanes_apply (by decide : 64 ≤ 256), shapeCast_self]

end Cert.KernelIdeal.Msg
-- ==== Proof.Region3.lean ====
/-
  Region 3 (order 3: 7 components, 64 channels), from its blocks to its array.

  The region walks the 250000 edges in 250 blocks of 1000. At point `t` every window sits on block `t` of its array
  along the edge axis and on the whole of the other axes, so row `e` of a block is edge `1000 t + e`. The body's stored
  value at `(e, m, c)` is the message of that edge (Payload3), hence what point `t` writes back is block `t` of the message
  array; the blocks tile the edge axis (edge `E` lies in block `E / 1000`), so after the region the output array holds the
  message array whole, whatever contents `V` the region was entered with.
-/
import proofs.«120961_j21474836480309_1_alg».proof.Proof.Gen.KernelIdeal.Frame
import proofs.«120961_j21474836480309_1_alg».proof.Proof.Payload3
import proofs.«120961_j21474836480309_1_alg».proof.Proof.Spec

set_option maxRecDepth 16384

noncomputable section

namespace Cert.KernelIdeal.Msg

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeros3_3 : (![0, 0, 0] : Fin 3 → Nat) = fun _ => 0 := funext fun a => by fin_cases a <;> rfl
theorem zeros2_3 : (![0, 0] : Fin 2 → Nat) = fun _ => 0 := funext fun a => by fin_cases a <;> rfl

/-- The three arrays region 3 reads, as it finds them: the harmonic factors, the radial factors, the gathered rows. -/
abbrev sh3 (c : Dev nD) : FVec Ideal S250000x7x1 .f32 := V c main_arg3
abbrev rb3 (c : Dev nD) : FVec Ideal S250000x64 .f32 := V c main_arg7
abbrev en3 (c : Dev nD) : FVec Ideal S250000x1x256 .f32 := V c main_v6

/-- The message array of order 3 of those three. -/
abbrev msgArr3 (c : Dev nD) : FVec Ideal S250000x7x64 .f32 :=
  Cert.Msg.msg (by decide : 64 ≤ 256) (sh3 V c) (rb3 V c) (en3 V c)

/-- The printed index maps, decided over the grid: at point `t` every window is on block `t` of the edge axis and on
    block 0 of every other axis. -/
theorem idx_facts3 : ∀ t : Fin cfg3.N,
    win3_0.index t (0 : Fin 3) = t.val ∧ win3_0.index t (1 : Fin 3) = 0 ∧ win3_0.index t (2 : Fin 3) = 0
    ∧ win3_1.index t (0 : Fin 2) = t.val ∧ win3_1.index t (1 : Fin 2) = 0
    ∧ win3_2.index t (0 : Fin 3) = t.val ∧ win3_2.index t (1 : Fin 3) = 0 ∧ win3_2.index t (2 : Fin 3) = 0
    ∧ win3_3.index t (0 : Fin 3) = t.val ∧ win3_3.index t (1 : Fin 3) = 0 ∧ win3_3.index t (2 : Fin 3) = 0 :=
  (by decide +kernel : ∀ t : Fin grid3.N, _)

/-- WHAT POINT `t` WRITES BACK is block `t` of the message array. -/
theorem flushed3 (c : Dev nD) (t : Fin cfg3.N) :
    (dat3 V c).flushed 3 t = ((cfg3.win 3).blk t).view.read (Elt Ideal) (msgArr3 V c) := by
  show (cfg3.win 3).cut (grid3.coords t) ((dat3 V c).after 3 t) = _
  rw [after3_3]
  unfold out3_3
  rw [View.canon_unit_zero zeros3_3]
  simp only [View.ld_unit_zero (S := S1000x7x1) zeros3_3, View.ld_unit_zero (S := S1000x64) zeros2_3,
    View.ld_unit_zero (S := S1000x1x256) zeros3_3]
  obtain ⟨a00, a01, a02, a10, a11, a20, a21, a22, a30, a31, a32⟩ := idx_facts3 t
  have ht : t.val < 250 := lt_of_lt_of_eq t.isLt N_3
  funext j
  obtain ⟨e, m, k, rfl⟩ : ∃ (e : Fin 1000) (m : Fin 7) (k : Fin 64), j = ix3 e m k := ⟨j 0, j 1, j 2, eq_ix3 j⟩
  refine (pay3_apply (iblk3 V c 0 t) (iblk3 V c 1 t) (iblk3 V c 2 t) e m k).trans ?_
  have hE : t.val * 1000 + e.val < 250000 := by have := e.isLt; omega
  have h0 : ((cfg3.win 0).blk t).view.emb (ix3 e m (0 : Fin 1)) = ix3 (⟨t.val * 1000 + e.val, hE⟩ : Fin 250000) m (0 : Fin 1) := by
    funext a; apply Fin.ext
    match a with
    | ⟨0, _⟩ => show win3_0.index t (0 : Fin 3) * 1000 + 1 * e.val = t.val * 1000 + e.val; omega
    | ⟨1, _⟩ => show win3_0.index t (1 : Fin 3) * 7 + 1 * m.val = m.val; omega
    | ⟨2, _⟩ => show win3_0.index t (2 : Fin 3) * 1 + 1 * 0 = 0; omega
  have h1 : ((cfg3.win 1).blk t).view.emb (ix2 e k) = ix2 (⟨t.val * 1000 + e.val, hE⟩ : Fin 250000) k := by
    funext a; apply Fin.ext
    match a with
    | ⟨0, _⟩ => show win3_1.index t (0 : Fin 2) * 1000 + 1 * e.val = t.val * 1000 + e.val; omega
    | ⟨1, _⟩ => show win3_1.index t (1 : Fin 2) * 64 + 1 * k.val = k.val; omega
  have h2 : ((cfg3.win 2).blk t).view.emb (ix3 e (0 : Fin 1) (Fin.castLE (by decide : 64 ≤ 256) k))
      = ix3 (⟨t.val * 1000 + e.val, hE⟩ : Fin 250000) (0 : Fin 1) (Fin.castLE (by decide : 64 ≤ 256) k) := by
    funext a; apply Fin.ext
    match a with
    | ⟨0, _⟩ => show win3_2.index t (0 : Fin 3) * 1000 + 1 * e.val = t.val * 1000 + e.val; omega
    | ⟨1, _⟩ => show win3_2.index t (1 : Fin 3) * 1 + 1 * 0 = 0; omega
    | ⟨2, _⟩ => show win3_2.index t (2 : Fin 3) * 256 + 1 * k.val = k.val; omega
  have h3 : ((cfg3.win 3).blk t).view.emb (ix3 e m k) = ix3 (⟨t.val * 1000 + e.val, hE⟩ : Fin 250000) m k := by
    funext a; apply Fin.ext
    match a with
    | ⟨0, _⟩ => show win3_3.index t (0 : Fin 3) * 1000 + 1 * e.val = t.val * 1000 + e.val; omega
    | ⟨1, _⟩ => show win3_3.index t (1 : Fin 3) * 7 + 1 * m.val = m.val; omega
    | ⟨2, _⟩ => show win3_3.index t (2 : Fin 3) * 64 + 1 * k.val = k.val; omega
  show (sh3 V c (((cfg3.win 0).blk t).view.emb (ix3 e m (0 : Fin 1))) * rb3 V c (((cfg3.win 1).blk t).view.emb (ix2 e k)))
      * en3 V c (((cfg3.win 2).blk t).view.emb (ix3 e (0 : Fin 1) (Fin.castLE (by decide : 64 ≤ 256) k)))
    = msgArr3 V c (((cfg3.win 3).blk t).view.emb (ix3 e m k))
  rw [h0, h1, h2, h3]
  rfl

/-- An index of the output array is in point `t`'s block iff each coordinate is in the block's range on its axis. -/
theorem mem_blk3 (t : Fin cfg3.N) (i : S250000x7x64.Idx) :
    i ∈ ((cfg3.win 3).blk t).view.set ↔ ∀ a : Fin 3, win3_3.index t a * S1000x7x64.size a ≤ (i a).val
      ∧ (i a).val < win3_3.index t a * S1000x7x64.size a + S1000x7x64.size a := by
  show i ∈ ((View.whole main_v19).slice (win3_3.rect t)).set ↔ _
  rw [View.set_slice_whole, Rect.mem_set_unit]
  exact Iff.rfl

/-- THE BLOCKS TILE THE ARRAY: edge `E` lies in the block of point `E / 1000`. -/
theorem cover3 (i : S250000x7x64.Idx) :
    ∃ t : Fin cfg3.N, (cfg3.win 3).flush t = true ∧ i ∈ ((cfg3.win 3).blk t).view.set := by
  have hi0 : (i 0).val < 250000 := (i 0).isLt
  have hi1 : (i 1).val < 7 := (i 1).isLt
  have hi2 : (i 2).val < 64 := (i 2).isLt
  have hN : (i 0).val / 1000 < cfg3.N := lt_of_lt_of_eq (by omega : (i 0).val / 1000 < 250) N_3.symm
  obtain ⟨-, -, -, -, -, -, -, -, a30, a31, a32⟩ := idx_facts3 ⟨(i 0).val / 1000, hN⟩
  have a30' : win3_3.index ⟨(i 0).val / 1000, hN⟩ (0 : Fin 3) = (i 0).val / 1000 := a30
  refine ⟨⟨(i 0).val / 1000, hN⟩, flush3_3 _, ?_⟩
  rw [mem_blk3]
  intro a
  match a with
  | ⟨0, _⟩ =>
    show win3_3.index ⟨(i 0).val / 1000, hN⟩ (0 : Fin 3) * 1000 ≤ (i 0).val
      ∧ (i 0).val < win3_3.index ⟨(i 0).val / 1000, hN⟩ (0 : Fin 3) * 1000 + 1000
    omega
  | ⟨1, _⟩ =>
    show win3_3.index ⟨(i 0).val / 1000, hN⟩ (1 : Fin 3) * 7 ≤ (i 1).val
      ∧ (i 1).val < win3_3.index ⟨(i 0).val / 1000, hN⟩ (1 : Fin 3) * 7 + 7
    omega
  | ⟨2, _⟩ =>
    show win3_3.index ⟨(i 0).val / 1000, hN⟩ (2 : Fin 3) * 64 ≤ (i 2).val
      ∧ (i 2).val < win3_3.index ⟨(i 0).val / 1000, hN⟩ (2 : Fin 3) * 64 + 64
    omega

/-- THE ARRAY after region 3: the message array of order 3 of the arrays the region was entered with. -/
theorem arr3 (c : Dev nD) : (dat3 V c).arrAt 3 cfg3.N = msgArr3 V c :=
  (dat3 V c).arrAt_eq_of_cover 3 (msgArr3 V c) (fun t _ => flushed3 V c t) cover3

end Cert.KernelIdeal.Msg

end
-- ==== Proof.KernelTail.lean ====
/-
  The kernel program's four results, as functions of the launch contents.

  An argument array is written by no stretch and is no region's output, so it holds its launch contents at every
  boundary; the gathered embedding rows, written once by the first stretch, are the same at every region's entry. Hence
  each region computes the message array of the launch contents of its two factor arrays and of those rows, and the
  stretch after it scatter-adds that array by the centres into zeros; the result buffer is written by nothing later.
-/
import proofs.«120961_j21474836480309_1_alg».proof.Proof.Boundary0
import proofs.«120961_j21474836480309_1_alg».proof.Proof.Boundary1
import proofs.«120961_j21474836480309_1_alg».proof.Proof.Boundary2
import proofs.«120961_j21474836480309_1_alg».proof.Proof.Boundary3
import proofs.«120961_j21474836480309_1_alg».proof.Proof.Boundary4
import proofs.«120961_j21474836480309_1_alg».proof.Proof.Region0
import proofs.«120961_j21474836480309_1_alg».proof.Proof.Region1
import proofs.«120961_j21474836480309_1_alg».proof.Proof.Region2
import proofs.«120961_j21474836480309_1_alg».proof.Proof.Region3

set_option maxRecDepth 16384

noncomputable section

namespace Cert.KernelIdeal.Msg

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## A buffer nothing has written yet holds its launch contents -/

theorem launch_W1 (c : Dev nD) (r : Ref sig .tc) (h0 : r ∉ written0) :
    W1 m ρ c (Proc.devRef .tc r) = m ((c : Thread nD τ).loc r) :=
  (keepH0 m ρ c r h0).trans rfl
theorem launch_W2 (c : Dev nD) (r : Ref sig .tc) (h0 : r ∉ written0) (o0 : r ≠ main_v7) :
    W2 m ρ c (Proc.devRef .tc r) = m ((c : Thread nD τ).loc r) :=
  (keepR0 m ρ c r o0).trans (launch_W1 m ρ c r h0)
theorem launch_W3 (c : Dev nD) (r : Ref sig .tc) (h0 : r ∉ written0) (h1 : r ∉ written1) (o0 : r ≠ main_v7) :
    W3 m ρ c (Proc.devRef .tc r) = m ((c : Thread nD τ).loc r) :=
  (next1 m ρ c r h1 o0).trans (launch_W1 m ρ c r h0)

/-- The embedding rows gathered for the edges' neighbours, as the first stretch leaves them. -/
abbrev rows (c : Dev nD) : FVec Ideal S250000x1x256 .f32 := W1 m ρ c (Proc.devRef .tc main_v6)

/-- The same rows as a function of the launch contents: the gather of the embedding table at the neighbour indices,
    each wrapped once when negative. Both programs apply these same operations, so the gather is never opened. -/
def gathered (c : Dev nD) : FVec Ideal S250000x1x256 .f32 :=
  Host.gather gather_S10000x1x256_S250000x1_S250000x1x256_12_0_n_n_0_1_11256 (m ((c : Thread nD τ).loc main_arg8))
    (broadcastInDim S250000x1 ![0] bcast_S250000_S250000x1_0
      (select (cmpi .slt (m ((c : Thread nD τ).loc main_arg10)) (broadcastInDim S250000 ![] bcast_S_S250000 (constantI S_ 32 0#32)))
        (addi (m ((c : Thread nD τ).loc main_arg10)) (broadcastInDim S250000 ![] bcast_S_S250000 (constantI S_ 32 10000#32)))
        (m ((c : Thread nD τ).loc main_arg10))))

theorem rows_eq (c : Dev nD) : rows m ρ c = gathered m c := by
  show StableHlo.after hostOps0 (W0 m ρ c) (Proc.devRef .tc main_v6) = _
  after_results
  rfl

/-- The message array of order 0 of the launch contents. -/
abbrev msgL0 (c : Dev nD) : FVec Ideal S250000x1x256 .f32 :=
  Cert.Msg.msg (by decide : 256 ≤ 256) (m ((c : Thread nD τ).loc main_arg0)) (m ((c : Thread nD τ).loc main_arg4)) (gathered m c)

/-- Region 0 is entered with its factor arrays as launched. -/
theorem entry0 (c : Dev nD) : msgArr0 (V1 m ρ) c = msgL0 m c := by
  show Cert.Msg.msg _ (W1 m ρ c (Proc.devRef .tc main_arg0)) (W1 m ρ c (Proc.devRef .tc main_arg4)) (rows m ρ c) = _
  rw [launch_W1 m ρ c main_arg0 (by decide), launch_W1 m ρ c main_arg4 (by decide), rows_eq m ρ c]

/-- RESULT 0: the messages of order 0 scatter-added by the centres into zeros. -/
theorem result0 (c : Dev nD) :
    W9 m ρ c (Proc.devRef .tc main_v10)
      = Host.scatterAdd scatter_S10000x1x256_S250000x1_S250000x1x256_12_0_0_1
          (broadcastInDim S10000x1x256 ![] bcast_S_S10000x1x256 (constant (F := Ideal) S_ .f32 0x00000000#32))
          (broadcastInDim S250000x1 ![0] bcast_S250000_S250000x1_0 (m ((c : Thread nD τ).loc main_arg9)))
          (msgL0 m c) := by
  have hkeep : W9 m ρ c (Proc.devRef .tc main_v10) = W3 m ρ c (Proc.devRef .tc main_v10) :=
    (next4 m ρ c main_v10 (by decide) (by decide)).trans
      ((next3 m ρ c main_v10 (by decide) (by decide)).trans (next2 m ρ c main_v10 (by decide) (by decide)))
  have hval : W3 m ρ c (Proc.devRef .tc main_v10)
      = Host.scatterAdd scatter_S10000x1x256_S250000x1_S250000x1x256_12_0_0_1
          (broadcastInDim S10000x1x256 ![] bcast_S_S10000x1x256 (constant (F := Ideal) S_ .f32 0x00000000#32))
          (broadcastInDim S250000x1 ![0] bcast_S250000_S250000x1_0 (W2 m ρ c (Proc.devRef .tc main_arg9)))
          (W2 m ρ c (Proc.devRef .tc main_v7)) := by
    show StableHlo.after hostOps1 (W2 m ρ c) (Proc.devRef .tc main_v10) = _
    after_results
  have hout : W2 m ρ c (Proc.devRef .tc main_v7) = (dat0 (V1 m ρ) c).arrAt 3 cfg0.N := W2_arr m ρ c 3
  rw [hkeep, hval, launch_W2 m ρ c main_arg9 (by decide) (by decide), hout, arr0 (V1 m ρ) c, entry0 m ρ c]

/-! ## The later regions' entries -/

theorem launch_W4 (c : Dev nD) (r : Ref sig .tc) (h0 : r ∉ written0) (h1 : r ∉ written1) (o0 : r ≠ main_v7) (o1 : r ≠ main_v11) :
    W4 m ρ c (Proc.devRef .tc r) = m ((c : Thread nD τ).loc r) :=
  (keepR1 m ρ c r o1).trans (launch_W3 m ρ c r h0 h1 o0)
theorem launch_W5 (c : Dev nD) (r : Ref sig .tc) (h0 : r ∉ written0) (h1 : r ∉ written1) (h2 : r ∉ written2)
    (o0 : r ≠ main_v7) (o1 : r ≠ main_v11) : W5 m ρ c (Proc.devRef .tc r) = m ((c : Thread nD τ).loc r) :=
  (next2 m ρ c r h2 o1).trans (launch_W3 m ρ c r h0 h1 o0)
theorem launch_W6 (c : Dev nD) (r : Ref sig .tc) (h0 : r ∉ written0) (h1 : r ∉ written1) (h2 : r ∉ written2)
    (o0 : r ≠ main_v7) (o1 : r ≠ main_v11) (o2 : r ≠ main_v15) : W6 m ρ c (Proc.devRef .tc r) = m ((c : Thread nD τ).loc r) :=
  (keepR2 m ρ c r o2).trans (launch_W5 m ρ c r h0 h1 h2 o0 o1)
theorem launch_W7 (c : Dev nD) (r : Ref sig .tc) (h0 : r ∉ written0) (h1 : r ∉ written1) (h2 : r ∉ written2) (h3 : r ∉ written3)
    (o0 : r ≠ main_v7) (o1 : r ≠ main_v11) (o2 : r ≠ main_v15) : W7 m ρ c (Proc.devRef .tc r) = m ((c : Thread nD τ).loc r) :=
  (next3 m ρ c r h3 o2).trans (launch_W5 m ρ c r h0 h1 h2 o0 o1)
theorem launch_W8 (c : Dev nD) (r : Ref sig .tc) (h0 : r ∉ written0) (h1 : r ∉ written1) (h2 : r ∉ written2) (h3 : r ∉ written3)
    (o0 : r ≠ main_v7) (o1 : r ≠ main_v11) (o2 : r ≠ main_v15) (o3 : r ≠ main_v19) :
    W8 m ρ c (Proc.devRef .tc r) = m ((c : Thread nD τ).loc r) :=
  (keepR3 m ρ c r o3).trans (launch_W7 m ρ c r h0 h1 h2 h3 o0 o1 o2)

/-- The gathered rows are the same at every later region's entry: each region only reads them, and no later stretch
    writes them. -/
theorem rows_W3 (c : Dev nD) : W3 m ρ c (Proc.devRef .tc main_v6) = rows m ρ c :=
  next1 m ρ c main_v6 (by decide) (by decide)
theorem rows_W5 (c : Dev nD) : W5 m ρ c (Proc.devRef .tc main_v6) = rows m ρ c :=
  (next2 m ρ c main_v6 (by decide) (by decide)).trans (rows_W3 m ρ c)
theorem rows_W7 (c : Dev nD) : W7 m ρ c (Proc.devRef .tc main_v6) = rows m ρ c :=
  (next3 m ρ c main_v6 (by decide) (by decide)).trans (rows_W5 m ρ c)

/-- The message arrays of orders 1, 2, 3 of the launch contents. -/
abbrev msgL1 (c : Dev nD) : FVec Ideal S250000x3x192 .f32 :=
  Cert.Msg.msg (by decide : 192 ≤ 256) (m ((c : Thread nD τ).loc main_arg1)) (m ((c : Thread nD τ).loc main_arg5)) (gathered m c)
abbrev msgL2 (c : Dev nD) : FVec Ideal S250000x5x128 .f32 :=
  Cert.Msg.msg (by decide : 128 ≤ 256) (m ((c : Thread nD τ).loc main_arg2)) (m ((c : Thread nD τ).loc main_arg6)) (gathered m c)
abbrev msgL3 (c : Dev nD) : FVec Ideal S250000x7x64 .f32 :=
  Cert.Msg.msg (by decide : 64 ≤ 256) (m ((c : Thread nD τ).loc main_arg3)) (m ((c : Thread nD τ).loc main_arg7)) (gathered m c)

/-- Regions 1, 2, 3 are entered with their factor arrays as launched and the gathered rows as the first stretch left them. -/
theorem entry1 (c : Dev nD) : msgArr1 (V3 m ρ) c = msgL1 m c := by
  show Cert.Msg.msg _ (W3 m ρ c (Proc.devRef .tc main_arg1)) (W3 m ρ c (Proc.devRef .tc main_arg5)) (W3 m ρ c (Proc.devRef .tc main_v6)) = _
  rw [launch_W3 m ρ c main_arg1 (by decide) (by decide) (by decide), launch_W3 m ρ c main_arg5 (by decide) (by decide) (by decide),
    rows_W3 m ρ c, rows_eq m ρ c]
theorem entry2 (c : Dev nD) : msgArr2 (V5 m ρ) c = msgL2 m c := by
  show Cert.Msg.msg _ (W5 m ρ c (Proc.devRef .tc main_arg2)) (W5 m ρ c (Proc.devRef .tc main_arg6)) (W5 m ρ c (Proc.devRef .tc main_v6)) = _
  rw [launch_W5 m ρ c main_arg2 (by decide) (by decide) (by decide) (by decide) (by decide),
    launch_W5 m ρ c main_arg6 (by decide) (by decide) (by decide) (by decide) (by decide), rows_W5 m ρ c, rows_eq m ρ c]
theorem entry3 (c : Dev nD) : msgArr3 (V7 m ρ) c = msgL3 m c := by
  show Cert.Msg.msg _ (W7 m ρ c (Proc.devRef .tc main_arg3)) (W7 m ρ c (Proc.devRef .tc main_arg7)) (W7 m ρ c (Proc.devRef .tc main_v6)) = _
  rw [launch_W7 m ρ c main_arg3 (by decide) (by decide) (by decide) (by decide) (by decide) (by decide) (by decide),
    launch_W7 m ρ c main_arg7 (by decide) (by decide) (by decide) (by decide) (by decide) (by decide) (by decide), rows_W7 m ρ c, rows_eq m ρ c]

/-- RESULT 1: the messages of order 1 scatter-added by the centres into zeros. -/
theorem result1 (c : Dev nD) :
    W9 m ρ c (Proc.devRef .tc main_v14)
      = Host.scatterAdd scatter_S10000x3x192_S250000x1_S250000x3x192_12_0_0_1
          (broadcastInDim S10000x3x192 ![] bcast_S_S10000x3x192 (constant (F := Ideal) S_ .f32 0x00000000#32))
          (broadcastInDim S250000x1 ![0] bcast_S250000_S250000x1_0 (m ((c : Thread nD τ).loc main_arg9)))
          (msgL1 m c) := by
  have hkeep : W9 m ρ c (Proc.devRef .tc main_v14) = W5 m ρ c (Proc.devRef .tc main_v14) :=
    (next4 m ρ c main_v14 (by decide) (by decide)).trans (next3 m ρ c main_v14 (by decide) (by decide))
  have hval : W5 m ρ c (Proc.devRef .tc main_v14)
      = Host.scatterAdd scatter_S10000x3x192_S250000x1_S250000x3x192_12_0_0_1
          (broadcastInDim S10000x3x192 ![] bcast_S_S10000x3x192 (constant (F := Ideal) S_ .f32 0x00000000#32))
          (broadcastInDim S250000x1 ![0] bcast_S250000_S250000x1_0 (W4 m ρ c (Proc.devRef .tc main_arg9)))
          (W4 m ρ c (Proc.devRef .tc main_v11)) := by
    show StableHlo.after hostOps2 (W4 m ρ c) (Proc.devRef .tc main_v14) = _
    after_results
  have hout : W4 m ρ c (Proc.devRef .tc main_v11) = (dat1 (V3 m ρ) c).arrAt 3 cfg1.N := W4_arr m ρ c 3
  rw [hkeep, hval, launch_W4 m ρ c main_arg9 (by decide) (by decide) (by decide) (by decide), hout, arr1 (V3 m ρ) c, entry1 m ρ c]

/-- RESULT 2: the messages of order 2 scatter-added by the centres into zeros. -/
theorem result2 (c : Dev nD) :
    W9 m ρ c (Proc.devRef .tc main_v18)
      = Host.scatterAdd scatter_S10000x5x128_S250000x1_S250000x5x128_12_0_0_1
          (broadcastInDim S10000x5x128 ![] bcast_S_S10000x5x128 (constant (F := Ideal) S_ .f32 0x00000000#32))
          (broadcastInDim S250000x1 ![0] bcast_S250000_S250000x1_0 (m ((c : Thread nD τ).loc main_arg9)))
          (msgL2 m c) := by
  have hkeep : W9 m ρ c (Proc.devRef .tc main_v18) = W7 m ρ c (Proc.devRef .tc main_v18) :=
    next4 m ρ c main_v18 (by decide) (by decide)
  have hval : W7 m ρ c (Proc.devRef .tc main_v18)
      = Host.scatterAdd scatter_S10000x5x128_S250000x1_S250000x5x128_12_0_0_1
          (broadcastInDim S10000x5x128 ![] bcast_S_S10000x5x128 (constant (F := Ideal) S_ .f32 0x00000000#32))
          (broadcastInDim S250000x1 ![0] bcast_S250000_S250000x1_0 (W6 m ρ c (Proc.devRef .tc main_arg9)))
          (W6 m ρ c (Proc.devRef .tc main_v15)) := by
    show StableHlo.after hostOps3 (W6 m ρ c) (Proc.devRef .tc main_v18) = _
    after_results
  have hout : W6 m ρ c (Proc.devRef .tc main_v15) = (dat2 (V5 m ρ) c).arrAt 3 cfg2.N := W6_arr m ρ c 3
  rw [hkeep, hval, launch_W6 m ρ c main_arg9 (by decide) (by decide) (by decide) (by decide) (by decide) (by decide), hout,
    arr2 (V5 m ρ) c, entry2 m ρ c]

/-- RESULT 3: the messages of order 3 scatter-added by the centres into zeros; the last stretch writes it. -/
theorem result3 (c : Dev nD) :
    W9 m ρ c (Proc.devRef .tc main_v22)
      = Host.scatterAdd scatter_S10000x7x64_S250000x1_S250000x7x64_12_0_0_1
          (broadcastInDim S10000x7x64 ![] bcast_S_S10000x7x64 (constant (F := Ideal) S_ .f32 0x00000000#32))
          (broadcastInDim S250000x1 ![0] bcast_S250000_S250000x1_0 (m ((c : Thread nD τ).loc main_arg9)))
          (msgL3 m c) := by
  have hval : W9 m ρ c (Proc.devRef .tc main_v22)
      = Host.scatterAdd scatter_S10000x7x64_S250000x1_S250000x7x64_12_0_0_1
          (broadcastInDim S10000x7x64 ![] bcast_S_S10000x7x64 (constant (F := Ideal) S_ .f32 0x00000000#32))
          (broadcastInDim S250000x1 ![0] bcast_S250000_S250000x1_0 (W8 m ρ c (Proc.devRef .tc main_arg9)))
          (W8 m ρ c (Proc.devRef .tc main_v19)) := by
    show StableHlo.after hostOps4 (W8 m ρ c) (Proc.devRef .tc main_v22) = _
    after_results
  have hout : W8 m ρ c (Proc.devRef .tc main_v19) = (dat3 (V7 m ρ) c).arrAt 3 cfg3.N := W8_arr m ρ c 3
  rw [hval, launch_W8 m ρ c main_arg9 (by decide) (by decide) (by decide) (by decide) (by decide) (by decide) (by decide) (by decide),
    hout, arr3 (V7 m ρ) c, entry3 m ρ c]

end Cert.KernelIdeal.Msg

end
-- ==== Proof.RefMsg.lean ====
/-
  The reference's four message arrays are the message function of the factor arrays and the gathered rows.

  For each order the reference broadcasts the harmonic factors along the channels and the radial factors along the
  components, multiplies the two, and multiplies the product by the gathered embedding rows (for orders 1 to 3: by their
  leading channels, sliced off and spread along the components). Read at an index `(e, m, c)` through the stages of the
  generated read-back, that is `(sh (e, m, 0) * rb (e, c)) * rows (e, 0, c)`: the message function, in the same
  association. The gathered rows stay one opaque array throughout.
-/
import proofs.«120961_j21474836480309_1_alg».proof.Proof.Gen.ReferenceIdeal.Read
import proofs.«120961_j21474836480309_1_alg».proof.Proof.Spec

noncomputable section

namespace Cert.ReferenceIdeal.Msg

open Idealize.ShloMosaic Idealize.ShloMosaic.ValueIdx
open Cert.ReferenceIdeal Cert.ReferenceIdeal.Read

/-- ORDER 0 (one component, all 256 channels): no slice, and the radial factors are broadcast once. -/
theorem ref_msg0 (x0 : (⟨S250000x1x1, .f32⟩ : BufTy).Contents (Elt Ideal)) (x4 : (⟨S250000x256, .f32⟩ : BufTy).Contents (Elt Ideal))
    (x8 : (⟨S10000x1x256, .f32⟩ : BufTy).Contents (Elt Ideal)) (x10 : (⟨S250000, .i32⟩ : BufTy).Contents (Elt Ideal)) :
    val_main_v10 (F := Ideal) x0 x4 x8 x10
      = Cert.Msg.msg (by decide : 256 ≤ 256) x0 x4 (val_main_v6 (F := Ideal) x8 x10) := by
  funext i
  rw [val_main_v10_apply, val_main_v9_apply, val_main_v8_apply, val_main_v7_apply]
  have h1 : (i 1).val < 1 := (i 1).isLt
  have e8 : idx_main_v8 i = ix3 (i 0) (i 1) (0 : Fin 1) :=
    funext fun a => Fin.ext (by match a with | ⟨0, _⟩ => rfl | ⟨1, _⟩ => show 0 = (i 1).val; omega | ⟨2, _⟩ => rfl)
  have e7 : idx_main_v7 i = ix2 (i 0) (i 2) :=
    funext fun a => Fin.ext (by match a with | ⟨0, _⟩ => rfl | ⟨1, _⟩ => rfl)
  have e6 : i = ix3 (i 0) (0 : Fin 1) (Fin.castLE (by decide : 256 ≤ 256) (i 2)) :=
    funext fun a => Fin.ext (by match a with | ⟨0, _⟩ => rfl | ⟨1, _⟩ => show (i 1).val = 0; omega | ⟨2, _⟩ => rfl)
  rw [e8, e7]
  exact congrArg (fun j => (x0 (ix3 (i 0) (i 1) (0 : Fin 1)) * x4 (ix2 (i 0) (i 2))) * val_main_v6 (F := Ideal) x8 x10 j) e6

/-- ORDER 1 (three components, the first 192 channels). -/
theorem ref_msg1 (x1 : (⟨S250000x3x1, .f32⟩ : BufTy).Contents (Elt Ideal)) (x5 : (⟨S250000x192, .f32⟩ : BufTy).Contents (Elt Ideal))
    (x8 : (⟨S10000x1x256, .f32⟩ : BufTy).Contents (Elt Ideal)) (x10 : (⟨S250000, .i32⟩ : BufTy).Contents (Elt Ideal)) :
    val_main_v20 (F := Ideal) x1 x5 x8 x10
      = Cert.Msg.msg (by decide : 192 ≤ 256) x1 x5 (val_main_v6 (F := Ideal) x8 x10) := by
  funext i
  rw [val_main_v20_apply, val_main_v17_apply, val_main_v15_apply, val_main_v16_apply, val_main_v14_apply,
    val_main_v19_apply, val_main_v18_apply]
  have e15 : idx_main_v15 i = ix3 (i 0) (i 1) (0 : Fin 1) :=
    funext fun a => Fin.ext (by match a with | ⟨0, _⟩ => rfl | ⟨1, _⟩ => rfl | ⟨2, _⟩ => rfl)
  have e14 : idx_main_v14 (idx_main_v16 i) = ix2 (i 0) (i 2) :=
    funext fun a => Fin.ext (by match a with | ⟨0, _⟩ => rfl | ⟨1, _⟩ => rfl)
  have e18 : idx_main_v18 (idx_main_v19 i) = ix3 (i 0) (0 : Fin 1) (Fin.castLE (by decide : 192 ≤ 256) (i 2)) :=
    funext fun a => Fin.ext (by match a with | ⟨0, _⟩ => rfl | ⟨1, _⟩ => rfl | ⟨2, _⟩ => rfl)
  rw [e15, e14, e18]
  rfl

/-- ORDER 2 (five components, the first 128 channels). -/
theorem ref_msg2 (x2 : (⟨S250000x5x1, .f32⟩ : BufTy).Contents (Elt Ideal)) (x6 : (⟨S250000x128, .f32⟩ : BufTy).Contents (Elt Ideal))
    (x8 : (⟨S10000x1x256, .f32⟩ : BufTy).Contents (Elt Ideal)) (x10 : (⟨S250000, .i32⟩ : BufTy).Contents (Elt Ideal)) :
    val_main_v30 (F := Ideal) x2 x6 x8 x10
      = Cert.Msg.msg (by decide : 128 ≤ 256) x2 x6 (val_main_v6 (F := Ideal) x8 x10) := by
  funext i
  rw [val_main_v30_apply, val_main_v27_apply, val_main_v25_apply, val_main_v26_apply, val_main_v24_apply,
    val_main_v29_apply, val_main_v28_apply]
  have e25 : idx_main_v25 i = ix3 (i 0) (i 1) (0 : Fin 1) :=
    funext fun a => Fin.ext (by match a with | ⟨0, _⟩ => rfl | ⟨1, _⟩ => rfl | ⟨2, _⟩ => rfl)
  have e24 : idx_main_v24 (idx_main_v26 i) = ix2 (i 0) (i 2) :=
    funext fun a => Fin.ext (by match a with | ⟨0, _⟩ => rfl | ⟨1, _⟩ => rfl)
  have e28 : idx_main_v28 (idx_main_v29 i) = ix3 (i 0) (0 : Fin 1) (Fin.castLE (by decide : 128 ≤ 256) (i 2)) :=
    funext fun a => Fin.ext (by match a with | ⟨0, _⟩ => rfl | ⟨1, _⟩ => rfl | ⟨2, _⟩ => rfl)
  rw [e25, e24, e28]
  rfl

/-- ORDER 3 (seven components, the first 64 channels). -/
theorem ref_msg3 (x3 : (⟨S250000x7x1, .f32⟩ : BufTy).Contents (Elt Ideal)) (x7 : (⟨S250000x64, .f32⟩ : BufTy).Contents (Elt Ideal))
    (x8 : (⟨S10000x1x256, .f32⟩ : BufTy).Contents (Elt Ideal)) (x10 : (⟨S250000, .i32⟩ : BufTy).Contents (Elt Ideal)) :
    val_main_v40 (F := Ideal) x3 x7 x8 x10
      = Cert.Msg.msg (by decide : 64 ≤ 256) x3 x7 (val_main_v6 (F := Ideal) x8 x10) := by
  funext i
  rw [val_main_v40_apply, val_main_v37_apply, val_main_v35_apply, val_main_v36_apply, val_main_v34_apply,
    val_main_v39_apply, val_main_v38_apply]
  have e35 : idx_main_v35 i = ix3 (i 0) (i 1) (0 : Fin 1) :=
    funext fun a => Fin.ext (by match a with | ⟨0, _⟩ => rfl | ⟨1, _⟩ => rfl | ⟨2, _⟩ => rfl)
  have e34 : idx_main_v34 (idx_main_v36 i) = ix2 (i 0) (i 2) :=
    funext fun a => Fin.ext (by match a with | ⟨0, _⟩ => rfl | ⟨1, _⟩ => rfl)
  have e38 : idx_main_v38 (idx_main_v39 i) = ix3 (i 0) (0 : Fin 1) (Fin.castLE (by decide : 64 ≤ 256) (i 2)) :=
    funext fun a => Fin.ext (by match a with | ⟨0, _⟩ => rfl | ⟨1, _⟩ => rfl | ⟨2, _⟩ => rfl)
  rw [e35, e34, e38]
  rfl

end Cert.ReferenceIdeal.Msg

end
-- ==== Proof.Bridge.lean ====
/-
  The five claims.

  Both idealized programs end with each result `K` (`K = 0, …, 3`) holding the scatter-add, by the centres into
  zeros, of the message array of order `K`: the entry-by-entry product `(sh_K (e, m, 0) * rb_K (e, c)) * rows (e, 0, c)`
  of the launch contents, `rows` the embedding rows gathered at the neighbour indices. The kernel program computes the
  message arrays in four pipelined regions (each output array is the message array whole: Region0 to Region3, read
  back to the launch contents in KernelTail); the reference computes them by broadcasts and products on the host
  (RefMsg). The gather before and the scatter-add after are the same operations in both programs and are compared as they
  stand. No law of the extended reals is used, so the precondition is never opened.
-/
import proofs.«120961_j21474836480309_1_alg».proof.Defs
import proofs.«120961_j21474836480309_1_alg».proof.Proof.Gen.Kernel.Frame
import proofs.«120961_j21474836480309_1_alg».proof.Proof.Gen.KernelIdeal.Frame
import proofs.«120961_j21474836480309_1_alg».proof.Proof.Gen.ReferenceIdeal.Run
import proofs.«120961_j21474836480309_1_alg».proof.Proof.Gen.ReferenceIdeal.Read
import proofs.«120961_j21474836480309_1_alg».proof.Proof.Gen.Pre_finite_inputs
import proofs.«120961_j21474836480309_1_alg».proof.Proof.KernelRun
import proofs.«120961_j21474836480309_1_alg».proof.Proof.KernelTail
import proofs.«120961_j21474836480309_1_alg».proof.Proof.RefMsg

set_option maxRecDepth 16384

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the four results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The ideal pass rewrote nothing. -/
theorem preserves : Cert.preserves_Kernel_KernelIdeal := trivial

open Cert.ReferenceIdeal.Read Cert.ReferenceIdeal.Msg in
/-- Both programs end with the same four densities. -/
theorem algebraic : Cert.algebraic_KernelIdeal_ReferenceIdeal := by
  intro m ρ m' ρ' _ hagree
  refine ⟨_, _, _, _,
    (θ_run Cert.KernelIdeal.defs _ _).mono (fun r h c =>
      ⟨(h c).1.trans (Cert.KernelIdeal.Msg.result0 m ρ c), (h c).2.1.trans (Cert.KernelIdeal.Msg.result1 m ρ c),
        (h c).2.2.1.trans (Cert.KernelIdeal.Msg.result2 m ρ c), (h c).2.2.2.1.trans (Cert.KernelIdeal.Msg.result3 m ρ c),
        (h c).2.2.2.2⟩) (Cert.KernelIdeal.Msg.run_results m ρ), ?_⟩
  refine (θ_run Cert.ReferenceIdeal.defs _ _).mono (fun r h c => ?_) (Cert.ReferenceIdeal.Value.run (F := Ideal) m' ρ')
  obtain ⟨e0, e1, e2, e3, e4, e5, e6, e7, e8, e9, e10⟩ := hagree c
  refine ⟨(h c).1.trans ?_, (h c).2.1.trans ?_, (h c).2.2.1.trans ?_, (h c).2.2.2.1.trans ?_, (h c).2.2.2.2⟩
  · rw [val_main_v13_eq]; unfold val_main_v13
    rw [ref_msg0, e0, e4, e8, e9, e10]
    rfl
  · rw [val_main_v23_eq]; unfold val_main_v23
    rw [ref_msg1, e1, e5, e8, e9, e10]
    rfl
  · rw [val_main_v33_eq]; unfold val_main_v33
    rw [ref_msg2, e2, e6, e8, e9, e10]
    rfl
  · rw [val_main_v43_eq]; unfold val_main_v43
    rw [ref_msg3, e3, e7, e8, e9, e10]
    rfl

end Cert.Proof.Claims

end
-- ==== Proof.lean ====
/-
  The certificate of the per-centre density kernel against its jnp reference, over the extended reals.

  For each order `K = 0, …, 3` and each edge `e` the message is the product of the edge's spherical-harmonic factors
  `sh_K (e, m, 0)`, its radial factors `rb_K (e, c)` and the first `k_K` channels of the embedding row of the edge's
  neighbour; the density of order `K` is the messages summed into their centres. The kernel computes the messages in
  four pipelined regions over blocks of edges and leaves the gather of the rows and the sum into the centres to the
  host; the reference does everything on the host. Both multiply in the same association, so the results are equal
  entry by entry with no law of the extended reals, and the finiteness of the inputs is not used.

  The witnesses of the programs' stated facts come first; then the three frames (the kernel's two from its generated
  frame, the reference's from its generated run), the idealization (the ideal pass rewrote nothing) and the equality of
  the results (Proof/Bridge.lean).
-/
import proofs.«120961_j21474836480309_1_alg».proof.Defs
import proofs.«120961_j21474836480309_1_alg».proof.Proof.Gen.Kernel
import proofs.«120961_j21474836480309_1_alg».proof.Proof.Gen.KernelIdeal
import proofs.«120961_j21474836480309_1_alg».proof.Proof.Gen.ReferenceIdeal
import proofs.«120961_j21474836480309_1_alg».proof.Proof.Gen.Pre_finite_inputs
import proofs.«120961_j21474836480309_1_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
